-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S1x64 : Shape := ⟨2, ![1, 64]⟩
abbrev S5000x1 : Shape := ⟨2, ![5000, 1]⟩
abbrev S1x1 : Shape := ⟨2, ![1, 1]⟩

abbrev nBuf : Space → Nat
  | .hbm => 151
  | .vmem => 47
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .f32⟩
  | 26 => ⟨S800000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S50000, .f32⟩
  | 49 => ⟨S50000x1, .f32⟩
  | 50 => ⟨S50000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x1, .f32⟩
  | 61 => ⟨S800000x64, .f32⟩
  | 62 => ⟨S800000x64, .f32⟩
  | 63 => ⟨S_, .f32⟩
  | 64 => ⟨S50000x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S50000x64, .f32⟩
  | 74 => ⟨S1x64, .f32⟩
  | 75 => ⟨S50000x64, .f32⟩
  | 76 => ⟨S50000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S800000x1, .f32⟩
  | 87 => ⟨S800000x64, .f32⟩
  | 88 => ⟨S800000x64, .f32⟩
  | 89 => ⟨S_, .f32⟩
  | 90 => ⟨S50000x64, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S50000x64, .f32⟩
  | 100 => ⟨S1x64, .f32⟩
  | 101 => ⟨S50000x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x1, .f32⟩
  | 113 => ⟨S800000x64, .f32⟩
  | 114 => ⟨S800000x64, .f32⟩
  | 115 => ⟨S_, .f32⟩
  | 116 => ⟨S50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x1, .i32⟩
  | 1 => ⟨S64, .i32⟩
  | 2 => ⟨S1x64, .i32⟩
  | 3 => ⟨S50000x64, .i32⟩
  | 4 => ⟨S50000x64, .i32⟩
  | 5 => ⟨S50000x64, .i1⟩
  | 6 => ⟨S50000x64, .bf16⟩
  | 7 => ⟨S_, .f32⟩
  | 8 => ⟨S50000x1, .f32⟩
  | 9 => ⟨S_, .f32⟩
  | 10 => ⟨S64x1, .f32⟩
  | 11 => ⟨S50000x1, .i32⟩
  | 12 => ⟨S64x1, .f32⟩
  | 13 => ⟨S64x64, .f32⟩
  | 14 => ⟨S_, .f32⟩
  | 15 => ⟨S64x1, .f32⟩
  | 16 => ⟨S64x1, .f32⟩
  | 17 => ⟨S64x64, .f32⟩
  | 18 => ⟨S64x64, .f32⟩
  | 19 => ⟨S64x1, .f32⟩
  | 20 => ⟨S1x1, .f32⟩
  | 21 => ⟨S64x1, .f32⟩
  | 22 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .bf16⟩
  | .local _ .vmem, ⟨43, _⟩ => ⟨S5000x64, .bf16⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_c_19 : Ref sig .tc := ⟨.hbm, 117, rfl⟩
abbrev main_v85 : Ref sig .tc := ⟨.hbm, 118, rfl⟩
abbrev main_v86 : Ref sig .tc := ⟨.hbm, 119, rfl⟩
abbrev main_c_20 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_cst_22 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_23 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  bcast_S_S50000x1 : S_.BroadcastsInDim S50000x1 (![] : Fin 0 → Fin S50000x1.rank)
  bcast_S_S64x1 : S_.BroadcastsInDim S64x1 (![] : Fin 0 → Fin S64x1.rank)
  shapeCasts_S64x64_S64x64 : S64x64.ShapeCasts S64x64
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S64x1_S50000x1_S50000x1_1_0_0_1_wf : ScatterDims.WF S64x1 S50000x1 S50000x1 [1] [0] [0] 1
  dot_S5000x64_S5000x64_S64x64_0_0_1_1_n_n_wf : DotDims.WF S5000x64 S5000x64 S64x64 [0] [0] [1] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .bf16 = 32 ∨ (Rect.block (s := S50000x64) S5000x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v91) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v100) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v105) S64x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩

abbrev nBuf : Space → Nat
  | .hbm => 238
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S_, .f32⟩
  | 17 => ⟨S50000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S_, .f32⟩
  | 27 => ⟨S800000, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S800000x1, .f32⟩
  | 59 => ⟨S800000x64, .f32⟩
  | 60 => ⟨S800000x64, .f32⟩
  | 61 => ⟨S_, .f32⟩
  | 62 => ⟨S50000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S50000x64, .f32⟩
  | 72 => ⟨S50000, .f32⟩
  | 73 => ⟨S50000x1, .f32⟩
  | 74 => ⟨S50000x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S_, .f32⟩
  | 85 => ⟨S50000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S_, .f32⟩
  | 95 => ⟨S800000, .f32⟩
  | 96 => ⟨S50000, .f32⟩
  | 97 => ⟨S50000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S800000, .f32⟩
  | 126 => ⟨S800000x1, .f32⟩
  | 127 => ⟨S800000x64, .f32⟩
  | _ => ⟨S50000x128, .f32⟩

abbrev hbmTy0_1 (i : Nat) : BufTy := match i % 128 with
  | 0 => ⟨S800000x64, .f32⟩
  | 1 => ⟨S_, .f32⟩
  | 2 => ⟨S50000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S50000x64, .f32⟩
  | 12 => ⟨S50000, .f32⟩
  | 13 => ⟨S50000x1, .f32⟩
  | 14 => ⟨S50000x64, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S_, .f32⟩
  | 21 => ⟨S50000x64, .f32⟩
  | 22 => ⟨S50000x64, .f32⟩
  | 23 => ⟨S50000x64, .f32⟩
  | 24 => ⟨S_, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S_, .f32⟩
  | 35 => ⟨S800000, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S800000, .f32⟩
  | 66 => ⟨S800000x1, .f32⟩
  | 67 => ⟨S800000x64, .f32⟩
  | 68 => ⟨S800000x64, .f32⟩
  | 69 => ⟨S_, .f32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S50000x64, .f32⟩
  | 80 => ⟨S50000, .f32⟩
  | 81 => ⟨S50000x1, .f32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S_, .f32⟩
  | 92 => ⟨S64x64, .f32⟩
  | 93 => ⟨S50000x1, .i32⟩
  | 94 => ⟨S64x64, .f32⟩
  | 95 => ⟨S_, .f32⟩
  | 96 => ⟨S50000x1, .f32⟩
  | 97 => ⟨S_, .f32⟩
  | 98 => ⟨S64x1, .f32⟩
  | 99 => ⟨S50000x1, .i32⟩
  | 100 => ⟨S64x1, .f32⟩
  | 101 => ⟨S_, .f32⟩
  | 102 => ⟨S64x1, .f32⟩
  | 103 => ⟨S64x1, .f32⟩
  | 104 => ⟨S64x64, .f32⟩
  | 105 => ⟨S64x64, .f32⟩
  | 106 => ⟨S64x1, .f32⟩
  | 107 => ⟨S1x1, .f32⟩
  | 108 => ⟨S64x1, .f32⟩
  | 109 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call0_cst : Ref sig .tc := ⟨.hbm, 80, rfl⟩
abbrev main_call0_v0 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_19 : Ref sig .tc := ⟨.hbm, 116, rfl⟩
abbrev main_v82 : Ref sig .tc := ⟨.hbm, 117, rfl⟩
abbrev main_v83 : Ref sig .tc := ⟨.hbm, 118, rfl⟩
abbrev main_c_20 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_c_22 : Ref sig .tc := ⟨.hbm, 131, rfl⟩
abbrev main_v94 : Ref sig .tc := ⟨.hbm, 132, rfl⟩
abbrev main_v95 : Ref sig .tc := ⟨.hbm, 133, rfl⟩
abbrev main_c_23 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_call1_cst : Ref sig .tc := ⟨.hbm, 148, rfl⟩
abbrev main_call1_v0 : Ref sig .tc := ⟨.hbm, 149, rfl⟩
abbrev main_v109 : Ref sig .tc := ⟨.hbm, 150, rfl⟩
abbrev main_v110 : Ref sig .tc := ⟨.hbm, 151, rfl⟩
abbrev main_cst_24 : Ref sig .tc := ⟨.hbm, 152, rfl⟩
abbrev main_v111 : Ref sig .tc := ⟨.hbm, 153, rfl⟩
abbrev main_c_25 : Ref sig .tc := ⟨.hbm, 154, rfl⟩
abbrev main_v112 : Ref sig .tc := ⟨.hbm, 155, rfl⟩
abbrev main_v113 : Ref sig .tc := ⟨.hbm, 156, rfl⟩
abbrev main_c_26 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_27 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_28 : Ref sig .tc := ⟨.hbm, 166, rfl⟩
abbrev main_v121 : Ref sig .tc := ⟨.hbm, 167, rfl⟩
abbrev main_v122 : Ref sig .tc := ⟨.hbm, 168, rfl⟩
abbrev main_c_29 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_30 : Ref sig .tc := ⟨.hbm, 175, rfl⟩
abbrev main_v128 : Ref sig .tc := ⟨.hbm, 176, rfl⟩
abbrev main_v129 : Ref sig .tc := ⟨.hbm, 177, rfl⟩
abbrev main_c_31 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c_32 : Ref sig .tc := ⟨.hbm, 184, rfl⟩
abbrev main_v135 : Ref sig .tc := ⟨.hbm, 185, rfl⟩
abbrev main_v136 : Ref sig .tc := ⟨.hbm, 186, rfl⟩
abbrev main_c_33 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_34 : Ref sig .tc := ⟨.hbm, 197, rfl⟩
abbrev main_v146 : Ref sig .tc := ⟨.hbm, 198, rfl⟩
abbrev main_c_35 : Ref sig .tc := ⟨.hbm, 199, rfl⟩
abbrev main_v147 : Ref sig .tc := ⟨.hbm, 200, rfl⟩
abbrev main_v148 : Ref sig .tc := ⟨.hbm, 201, rfl⟩
abbrev main_c_36 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_call2_cst : Ref sig .tc := ⟨.hbm, 216, rfl⟩
abbrev main_call2_v0 : Ref sig .tc := ⟨.hbm, 217, rfl⟩
abbrev main_v162 : Ref sig .tc := ⟨.hbm, 218, rfl⟩
abbrev main_cst_37 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_cst_38 : Ref sig .tc := ⟨.hbm, 223, rfl⟩
abbrev main_v166 : Ref sig .tc := ⟨.hbm, 224, rfl⟩
abbrev main_cst_39 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_40 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x128_S128x64_S50000x64_1_0_0_1_n_n_wf : DotDims.WF S50000x128 S128x64 S50000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64x1_S50000x1_S50000x1_1_0_0_1_wf : ScatterDims.WF S64x1 S50000x1 S50000x1 [1] [0] [0] 1
  dot_S64x64_S64x1_S64x1_1_0_0_1_n_n_wf : DotDims.WF S64x64 S64x1 S64x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Spec.lean ====
/-
  The three array functions a graph-convolution network's kernels compute, over the extended reals, index by index.

  * `proj x w` is the matrix product: entry (i, j) is the sum over r of x(i, r) · w(r, j).
  * `comb agg hp s b` is one layer's combine step followed by the rectifier: entry (i, j) is
    max(agg(i, j) + hp(i, j) · s(i, 0) + b(0, j), 0), with `s` a column (one scale per node) and `b` a row
    (one bias per feature).
  * `pool oh h` is the segment sum written as a product with a membership matrix: entry (g, j) is the sum over
    the nodes n of oh(n, g) · h(n, j).
  * `onehot bt` is that membership matrix: 1 where node n's segment id, read as a signed number, is g, else 0.

  Sums are over `Fin k`; addition on the extended reals is commutative and associative, so the order in which a
  kernel or a host program adds the terms does not matter.
-/
import Idealize.ShloMosaic.PureOps.Ideal
import Idealize.ShloMosaic.Lib.ValueIdx

noncomputable section

namespace Cert.Spec

open Idealize.ShloMosaic Idealize.ShloMosaic.ValueIdx

/-- The shape of an n × k matrix. -/
abbrev M (n k : Nat) : Shape := ⟨2, ![n, k]⟩
/-- The shape of a vector of length n. -/
abbrev R1 (n : Nat) : Shape := ⟨1, ![n]⟩

/-- The matrix product of an n × k and a k × d matrix. -/
def proj {n k d : Nat} (x : (M n k).Idx → EReal) (w : (M k d).Idx → EReal) : (M n d).Idx → EReal :=
  fun i => ∑ r : Fin k, x (ix2 (n0 := n) (i 0) r) * w (ix2 (n1 := d) r (i 1))

/-- One layer's combine step and rectifier: aggregate plus self-loop term plus bias, clipped below at zero. -/
def comb {n d : Nat} (agg hp : (M n d).Idx → EReal) (s : (M n 1).Idx → EReal) (b : (M 1 d).Idx → EReal) :
    (M n d).Idx → EReal :=
  fun i => max (agg i + hp i * s (ix2 (n0 := n) (i 0) (0 : Fin 1)) + b (ix2 (n1 := d) (0 : Fin 1) (i 1)))
    (Ideal.ofBits .f32 0x00000000#32)

/-- The membership matrix of a vector of segment ids: 1 at (n, g) when id n, read signed, is g. -/
def onehot {n g : Nat} (bt : (R1 n).Idx → BitVec 32) : (M n g).Idx → EReal :=
  fun i => if (bt (ix1 (n := n) (i 0))).toInt = ((i 1).val : Int) then 1 else 0

/-- The segment sum as a product with a membership matrix. -/
def pool {n g d : Nat} (oh : (M n g).Idx → EReal) (h : (M n d).Idx → EReal) : (M g d).Idx → EReal :=
  fun i => ∑ r : Fin n, oh (ix2 (n1 := g) r (i 0)) * h (ix2 (n1 := d) r (i 1))

end Cert.Spec

end
-- ==== Proof.Glue.lean ====
/-
  The host side of the graph-convolution network, as functions of the argument arrays, and the network itself.

  The edge list `e` (2 × E) gives each edge's source row (`srcOf`) and target row (`dstOf`). An index vector is
  prepared for a gather or a scatter by wrapping negative entries once by the number of nodes (`wrapIdx`). The degree
  of a node counts itself once and each edge that targets it; `dinvOf` is its inverse square root; `normOf` is the
  product of the two endpoints' inverse square roots, one per edge; `d2Of` is the squared inverse square root as a
  column, the scale of a node's own feature row. `aggOf hp` gathers the projected rows at the edges' sources,
  scales each by its edge's norm and adds it into its target's row. `onehotOf` is the membership matrix of the
  segment ids (compare each id with 0 … 63, then read the truth value as a number); `cntOf` counts each segment's
  nodes; `tailOf` divides each segment's sum by its count (at least one), applies the last linear map and adds
  its bias. `net` composes three layers, the segment sum and the tail.
-/
import proofs.«411616_j90108413870647_1_alg».proof.Proof.Gen.KernelIdeal
import proofs.«411616_j90108413870647_1_alg».proof.Proof.Spec

noncomputable section

namespace Cert.KernelIdeal.Glue

open Cert.KernelIdeal Cert.KernelIdeal.Facts₀ Cert.KernelIdeal.Facts
open Idealize.ShloMosaic Idealize.ShloMosaic.TcCoe Idealize.ShloMosaic.ValueIdx

variable {F : FTy → Type} [FloatOps F]

/-- Row 0 of the edge list: each edge's source node. -/
def srcOf (e : IVec S2x800000 32) : IVec S800000 32 :=
  shapeCast S800000 (extractStridedSlice S1x800000 ![0, 0] e slices_S2x800000_S1x800000_0_0) shapeCasts_S1x800000_S800000

/-- Row 1 of the edge list: each edge's target node. -/
def dstOf (e : IVec S2x800000 32) : IVec S800000 32 :=
  shapeCast S800000 (extractStridedSlice S1x800000 ![1, 0] e slices_S2x800000_S1x800000_1_0) shapeCasts_S1x800000_S800000

/-- An index vector made ready for a gather or scatter: a negative entry is moved up by the number of nodes, and the
    vector becomes a column of one-component start indices. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The inverse square root of each node's degree (itself plus the edges that target it). -/
def dinvOf (dst : IVec S800000 32) : FVec F S50000 .f32 :=
  Host.rsqrt (Host.scatterAdd scatter_S50000_S800000x1_S800000_n_0_0_1
    (broadcastInDim S50000 ![] bcast_S_S50000 (constant S_ .f32 0x3F800000#32)) (wrapIdx dst)
    (broadcastInDim S800000 ![] bcast_S_S800000 (constant S_ .f32 0x3F800000#32)))

/-- Each edge's weight: the product of its endpoints' inverse square root degrees. -/
def normOf (dinv : FVec F S50000 .f32) (src dst : IVec S800000 32) : FVec F S800000 .f32 :=
  mulf (Host.gather gather_S50000_S800000x1_S800000_n_0_n_n_0_1_1 dinv (wrapIdx src))
    (Host.gather gather_S50000_S800000x1_S800000_n_0_n_n_0_1_1 dinv (wrapIdx dst))

/-- The squared inverse square root degrees as a column: the weight of a node's own row. -/
def d2Of (dinv : FVec F S50000 .f32) : FVec F S50000x1 .f32 :=
  shapeCast S50000x1 (mulf dinv dinv) shapeCasts_S50000_S50000x1

/-- A bias vector as a row. -/
def rowOf (b : FVec F S64 .f32) : FVec F S1x64 .f32 := shapeCast S1x64 b shapeCasts_S64_S1x64

/-- The aggregate over incoming edges: gather the projected rows at the sources, scale by the edge weights, add into
    the targets' rows starting from zero. -/
def aggOf (hp : FVec F S50000x64 .f32) (src dst : IVec S800000 32) (norm : FVec F S800000 .f32) : FVec F S50000x64 .f32 :=
  Host.scatterAdd scatter_S50000x64_S800000x1_S800000x64_1_0_0_1
    (broadcastInDim S50000x64 ![] bcast_S_S50000x64 (constant S_ .f32 0x00000000#32)) (wrapIdx dst)
    (mulf (Host.gather gather_S50000x64_S800000x1_S800000x64_1_0_n_n_0_1_164 hp (wrapIdx src))
      (broadcastInDim S800000x64 ![0, 1] bcast_S800000x1_S800000x64_0_1
        (broadcastInDim S800000x1 ![0] bcast_S800000_S800000x1_0 norm)))

/-- The membership matrix of the segment ids, as the host computes it: id n compared with g, the truth value read as
    a number. -/
def onehotOf (bt : IVec S50000 32) : FVec F S50000x64 .bf16 :=
  uitofp .bf16 (cmpi .eq
    (broadcastInDim S50000x64 ![0, 1] bcast_S50000x1_S50000x64_0_1 (broadcastInDim S50000x1 ![0] bcast_S50000_S50000x1_0 bt))
    (broadcastInDim S50000x64 ![0, 1] bcast_S1x64_S50000x64_0_1 (broadcastInDim S1x64 ![1] bcast_S64_S1x64_1 (iotaInDim S64 32 0))))

/-- The number of nodes in each segment. -/
def cntOf (bt : IVec S50000 32) : FVec F S64x1 .f32 :=
  Host.scatterAdd scatter_S64x1_S50000x1_S50000x1_1_0_0_1
    (broadcastInDim S64x1 ![] bcast_S_S64x1 (constant S_ .f32 0x00000000#32))
    (broadcastInDim S50000x1 ![0] bcast_S50000_S50000x1_0 bt)
    (broadcastInDim S50000x1 ![] bcast_S_S50000x1 (constant S_ .f32 0x3F800000#32))

/-- The head: segment means (sum over a count of at least one), the last linear map, its bias. -/
def tailOf (pooled : FVec F S64x64 .f32) (cnt : FVec F S64x1 .f32) (wfc : FVec F S64x1 .f32) (bfc : FVec F S1 .f32) :
    FVec F S64x1 .f32 :=
  addf (Host.dotGeneral dot_S64x64_S64x1_S64x1_1_0_0_1_n_n none
      (Host.divf pooled (broadcastInDim S64x64 ![0, 1] bcast_S64x1_S64x64_0_1
        (maximumf cnt (broadcastInDim S64x1 ![] bcast_S_S64x1 (constant S_ .f32 0x3F800000#32))))) wfc)
    (broadcastInDim S64x1 ![0, 1] bcast_S1x1_S64x1_0_1 (broadcastInDim S1x1 ![1] bcast_S1_S1x1_1 bfc))

/-- One layer from its projected features `hp`: aggregate, self-loop term, bias, rectifier. -/
def layerOf (hp : FVec Ideal S50000x64 .f32) (e : IVec S2x800000 32) (b : FVec Ideal S64 .f32) : FVec Ideal S50000x64 .f32 :=
  Cert.Spec.comb (aggOf hp (srcOf e) (dstOf e) (normOf (dinvOf (dstOf e)) (srcOf e) (dstOf e))) hp
    (d2Of (F := Ideal) (dinvOf (dstOf e))) (rowOf b)

/-- The network: three layers, the segment sum, the head. -/
def net (x : FVec Ideal S50000x128 .f32) (e : IVec S2x800000 32) (bt : IVec S50000 32)
    (w1 : FVec Ideal S128x64 .f32) (b1 : FVec Ideal S64 .f32) (w2 : FVec Ideal S64x64 .f32) (b2 : FVec Ideal S64 .f32)
    (w3 : FVec Ideal S64x64 .f32) (b3 : FVec Ideal S64 .f32) (wfc : FVec Ideal S64x1 .f32) (bfc : FVec Ideal S1 .f32) :
    FVec Ideal S64x1 .f32 :=
  tailOf (Cert.Spec.pool (onehotOf (F := Ideal) bt)
      (layerOf (Cert.Spec.proj (layerOf (Cert.Spec.proj (layerOf (Cert.Spec.proj x w1) e b1) w2) e b2) w3) e b3))
    (cntOf bt) wfc bfc

end Cert.KernelIdeal.Glue

end
-- ==== Proof.ChainDefs.lean ====
/-
  What the kernel program's buffers hold at the boundaries between its layers, as functions of the argument arrays.

  `a0 … a10` are the argument arrays as launched. `H1`, `H2`, `H3` are the three layers' outputs: each is the
  combine step applied to the aggregate of the projected features, the projected features themselves, the squared
  inverse square root degrees and the layer's bias. `Live W` says that a boundary's contents `W` still hold what the
  first host stretch computed once for all layers (the edges' sources and targets, the edge weights, the self-loop
  weights) and the argument arrays the later layers read.
-/
import proofs.«411616_j90108413870647_1_alg».proof.Proof.Gen.KernelIdeal.Frame
import proofs.«411616_j90108413870647_1_alg».proof.Proof.Glue
import Idealize.ShloMosaic.Lib.ValueIdx

noncomputable section

namespace Cert.KernelIdeal.Chain

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

abbrev a0 : FVec Ideal S50000x128 .f32 := m ((c : Thread nD τ).loc main_arg0)
abbrev a1 : IVec S2x800000 32 := m ((c : Thread nD τ).loc main_arg1)
abbrev a2 : IVec S50000 32 := m ((c : Thread nD τ).loc main_arg2)
abbrev a3 : FVec Ideal S128x64 .f32 := m ((c : Thread nD τ).loc main_arg3)
abbrev a4 : FVec Ideal S64 .f32 := m ((c : Thread nD τ).loc main_arg4)
abbrev a5 : FVec Ideal S64x64 .f32 := m ((c : Thread nD τ).loc main_arg5)
abbrev a6 : FVec Ideal S64 .f32 := m ((c : Thread nD τ).loc main_arg6)
abbrev a7 : FVec Ideal S64x64 .f32 := m ((c : Thread nD τ).loc main_arg7)
abbrev a8 : FVec Ideal S64 .f32 := m ((c : Thread nD τ).loc main_arg8)
abbrev a9 : FVec Ideal S64x1 .f32 := m ((c : Thread nD τ).loc main_arg9)
abbrev a10 : FVec Ideal S1 .f32 := m ((c : Thread nD τ).loc main_arg10)

/-- The edges' source nodes. -/
abbrev SRC : IVec S800000 32 := Glue.srcOf (a1 m c)
/-- The edges' target nodes. -/
abbrev DST : IVec S800000 32 := Glue.dstOf (a1 m c)
/-- The inverse square root degrees. -/
abbrev DINV : FVec Ideal S50000 .f32 := Glue.dinvOf (DST m c)
/-- The edge weights. -/
abbrev NORM : FVec Ideal S800000 .f32 := Glue.normOf (DINV m c) (SRC m c) (DST m c)
/-- The self-loop weights, as a column. -/
abbrev D2 : FVec Ideal S50000x1 .f32 := Glue.d2Of (DINV m c)

/-- The first layer's output. -/
def H1 : FVec Ideal S50000x64 .f32 := Glue.layerOf (Cert.Spec.proj (a0 m c) (a3 m c)) (a1 m c) (a4 m c)
/-- The second layer's output. -/
def H2 : FVec Ideal S50000x64 .f32 := Glue.layerOf (Cert.Spec.proj (H1 m c) (a5 m c)) (a1 m c) (a6 m c)
/-- The third layer's output. -/
def H3 : FVec Ideal S50000x64 .f32 := Glue.layerOf (Cert.Spec.proj (H2 m c) (a7 m c)) (a1 m c) (a8 m c)

/-- What every boundary after the first host stretch keeps. -/
structure Live (W : Valuation τ sig (Elt Ideal)) : Prop where
  v1 : (W (Proc.devRef .tc main_v1) : S800000.Idx → BitVec 32) = SRC m c
  v3 : (W (Proc.devRef .tc main_v3) : S800000.Idx → BitVec 32) = DST m c
  v28 : (W (Proc.devRef .tc main_v28) : S800000.Idx → EReal) = NORM m c
  v30 : (W (Proc.devRef .tc main_v30) : S50000x1.Idx → EReal) = D2 m c
  g2 : W (Proc.devRef .tc main_arg2) = m ((c : Thread nD τ).loc main_arg2)
  g5 : W (Proc.devRef .tc main_arg5) = m ((c : Thread nD τ).loc main_arg5)
  g6 : W (Proc.devRef .tc main_arg6) = m ((c : Thread nD τ).loc main_arg6)
  g7 : W (Proc.devRef .tc main_arg7) = m ((c : Thread nD τ).loc main_arg7)
  g8 : W (Proc.devRef .tc main_arg8) = m ((c : Thread nD τ).loc main_arg8)
  g9 : W (Proc.devRef .tc main_arg9) = m ((c : Thread nD τ).loc main_arg9)
  g10 : W (Proc.devRef .tc main_arg10) = m ((c : Thread nD τ).loc main_arg10)

/-- Contents that agree with a boundary's on the kept buffers keep them too. -/
theorem Live.congr {W W' : Valuation τ sig (Elt Ideal)} (h : Live m c W)
    (e1 : W' (Proc.devRef .tc main_v1) = W (Proc.devRef .tc main_v1))
    (e3 : W' (Proc.devRef .tc main_v3) = W (Proc.devRef .tc main_v3))
    (e28 : W' (Proc.devRef .tc main_v28) = W (Proc.devRef .tc main_v28))
    (e30 : W' (Proc.devRef .tc main_v30) = W (Proc.devRef .tc main_v30))
    (f2 : W' (Proc.devRef .tc main_arg2) = W (Proc.devRef .tc main_arg2))
    (f5 : W' (Proc.devRef .tc main_arg5) = W (Proc.devRef .tc main_arg5))
    (f6 : W' (Proc.devRef .tc main_arg6) = W (Proc.devRef .tc main_arg6))
    (f7 : W' (Proc.devRef .tc main_arg7) = W (Proc.devRef .tc main_arg7))
    (f8 : W' (Proc.devRef .tc main_arg8) = W (Proc.devRef .tc main_arg8))
    (f9 : W' (Proc.devRef .tc main_arg9) = W (Proc.devRef .tc main_arg9))
    (f10 : W' (Proc.devRef .tc main_arg10) = W (Proc.devRef .tc main_arg10)) : Live m c W' :=
  ⟨e1.trans h.v1, e3.trans h.v3, e28.trans h.v28, e30.trans h.v30, f2.trans h.g2, f5.trans h.g5, f6.trans h.g6,
    f7.trans h.g7, f8.trans h.g8, f9.trans h.g9, f10.trans h.g10⟩

end Cert.KernelIdeal.Chain

end
-- ==== Proof.Keep.lean ====
/-
  A host stretch changes only the buffers its operations write. For each of the program's six host stretches: the list of
  the buffers it writes, and the fact that any other buffer holds after the stretch what it held before.
-/
import proofs.«411616_j90108413870647_1_alg».proof.Proof.Gen.KernelIdeal.Launch
import Idealize.ShloMosaic.Lib.ValueIdx

noncomputable section

namespace Cert.KernelIdeal.Keep

open Cert.KernelIdeal Cert.KernelIdeal.Gen Idealize.ShloMosaic Idealize.ShloMosaic.TcCoe Idealize.ShloMosaic.StableHlo

variable {F : FTy → Type} [FloatOps F]

/-- The buffers host stretch 0 writes. -/
def written0 : List (Ref sig .tc) := [main_v0, main_v1, main_v2, main_v3, main_cst, main_v4, main_c, main_v5, main_v6, main_c_0, main_v7, main_v8, main_v9, main_v10, main_cst_1, main_v11, main_v12, main_v13, main_c_2, main_v14, main_v15, main_c_3, main_v16, main_v17, main_v18, main_v19, main_v20, main_c_4, main_v21, main_v22, main_c_5, main_v23, main_v24, main_v25, main_v26, main_v27, main_v28, main_v29, main_v30]

theorem writes0 : (hostOps0 : List (HloOp τ sig (Elt F))).Forall fun op =>
    op.writes ⊆ ((written0).map (Proc.devRef (τ := τ) .tc)).toFinset := by
  simp only [hostOps0, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer host stretch 0 does not write holds after it what it held before. -/
theorem keep0 (V : Valuation τ sig (Elt F)) (r : Ref sig .tc) (hr : r ∉ written0) :
    StableHlo.after (hostOps0 : List (HloOp τ sig (Elt F))) V (Proc.devRef .tc r) = V (Proc.devRef .tc r) :=
  StableHlo.after_of_writes_sub _ V writes0 hr

/-- The buffers host stretch 1 writes. -/
def written1 : List (Ref sig .tc) := [main_c_6, main_v32, main_v33, main_c_7, main_v34, main_v35, main_v36, main_v37, main_v38, main_v39, main_v40, main_v41, main_cst_8, main_v42, main_c_9, main_v43, main_v44, main_c_10, main_v45, main_v46, main_v47, main_v48, main_v49, main_v50]

theorem writes1 : (hostOps1 : List (HloOp τ sig (Elt F))).Forall fun op =>
    op.writes ⊆ ((written1).map (Proc.devRef (τ := τ) .tc)).toFinset := by
  simp only [hostOps1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer host stretch 1 does not write holds after it what it held before. -/
theorem keep1 (V : Valuation τ sig (Elt F)) (r : Ref sig .tc) (hr : r ∉ written1) :
    StableHlo.after (hostOps1 : List (HloOp τ sig (Elt F))) V (Proc.devRef .tc r) = V (Proc.devRef .tc r) :=
  StableHlo.after_of_writes_sub _ V writes1 hr

/-- The buffers host stretch 3 writes. -/
def written3 : List (Ref sig .tc) := [main_c_11, main_v53, main_v54, main_c_12, main_v55, main_v56, main_v57, main_v58, main_v59, main_v60, main_v61, main_v62, main_cst_13, main_v63, main_c_14, main_v64, main_v65, main_c_15, main_v66, main_v67, main_v68, main_v69, main_v70, main_v71]

theorem writes3 : (hostOps3 : List (HloOp τ sig (Elt F))).Forall fun op =>
    op.writes ⊆ ((written3).map (Proc.devRef (τ := τ) .tc)).toFinset := by
  simp only [hostOps3, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer host stretch 3 does not write holds after it what it held before. -/
theorem keep3 (V : Valuation τ sig (Elt F)) (r : Ref sig .tc) (hr : r ∉ written3) :
    StableHlo.after (hostOps3 : List (HloOp τ sig (Elt F))) V (Proc.devRef .tc r) = V (Proc.devRef .tc r) :=
  StableHlo.after_of_writes_sub _ V writes3 hr

/-- The buffers host stretch 5 writes. -/
def written5 : List (Ref sig .tc) := [main_c_16, main_v74, main_v75, main_c_17, main_v76, main_v77, main_v78, main_v79, main_v80, main_v81, main_v82, main_v83, main_cst_18, main_v84, main_c_19, main_v85, main_v86, main_c_20, main_v87, main_v88, main_v89, main_v90, main_v91, main_v92]

theorem writes5 : (hostOps5 : List (HloOp τ sig (Elt F))).Forall fun op =>
    op.writes ⊆ ((written5).map (Proc.devRef (τ := τ) .tc)).toFinset := by
  simp only [hostOps5, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer host stretch 5 does not write holds after it what it held before. -/
theorem keep5 (V : Valuation τ sig (Elt F)) (r : Ref sig .tc) (hr : r ∉ written5) :
    StableHlo.after (hostOps5 : List (HloOp τ sig (Elt F))) V (Proc.devRef .tc r) = V (Proc.devRef .tc r) :=
  StableHlo.after_of_writes_sub _ V writes5 hr

/-- The buffers host stretch 6 writes. -/
def written6 : List (Ref sig .tc) := [main_v94, main_v95, main_v96, main_v97, main_v98, main_v99, main_v100, main_cst_21, main_v101, main_cst_22, main_v102, main_v103, main_v104]

theorem writes6 : (hostOps6 : List (HloOp τ sig (Elt F))).Forall fun op =>
    op.writes ⊆ ((written6).map (Proc.devRef (τ := τ) .tc)).toFinset := by
  simp only [hostOps6, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer host stretch 6 does not write holds after it what it held before. -/
theorem keep6 (V : Valuation τ sig (Elt F)) (r : Ref sig .tc) (hr : r ∉ written6) :
    StableHlo.after (hostOps6 : List (HloOp τ sig (Elt F))) V (Proc.devRef .tc r) = V (Proc.devRef .tc r) :=
  StableHlo.after_of_writes_sub _ V writes6 hr

/-- The buffers host stretch 7 writes. -/
def written7 : List (Ref sig .tc) := [main_cst_23, main_v106, main_v107, main_v108, main_v109, main_v110, main_v111, main_v112, main_v113]

theorem writes7 : (hostOps7 : List (HloOp τ sig (Elt F))).Forall fun op =>
    op.writes ⊆ ((written7).map (Proc.devRef (τ := τ) .tc)).toFinset := by
  simp only [hostOps7, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer host stretch 7 does not write holds after it what it held before. -/
theorem keep7 (V : Valuation τ sig (Elt F)) (r : Ref sig .tc) (hr : r ∉ written7) :
    StableHlo.after (hostOps7 : List (HloOp τ sig (Elt F))) V (Proc.devRef .tc r) = V (Proc.devRef .tc r) :=
  StableHlo.after_of_writes_sub _ V writes7 hr

end Cert.KernelIdeal.Keep

end
-- ==== Proof.Proj0.lean ====
import proofs.«411616_j90108413870647_1_alg».proof.Proof.Gen.KernelIdeal.Frame
import proofs.«411616_j90108413870647_1_alg».proof.Proof.Spec
import Idealize.ShloMosaic.Lib.ValueIdx
import Idealize.ShloMosaic.Lib.Pipeline.Value
import Idealize.ShloMosaic.PureOps.Ideal.Laws

/-!
  The first projection: the output array after the region's ten grid points is the matrix product of its two
  input arrays, entry by entry over the extended reals.

  * One grid point multiplies a 5000 × 128 block of rows of x by the whole 128 × 64 weight. The change of float
    format of both operands is the identity on extended reals and the accumulator starts at zero, so entry (p, q)
    of the block's result is the sum over r of x(p, r) · w(r, q)  (`rowBlock_mul_apply`).
  * At point t the block of x and the block of the output are both row block t (rows 5000·t … 5000·t + 4999), and
    the weight's block is the weight itself (`blockIndex_facts`, `xBlock_apply`, `wBlock_apply`). So what
    point t writes back is block t of the product of the whole arrays (`flushed_rowBlock`).
  * Row n lies in the block of point n / 5000 (`rows_covered`): the ten blocks cover the array, which therefore
    ends holding the product (`proj0`).
-/

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat)

namespace FirstProj

/-- The left operand's row coordinate is the output's row. -/
theorem lhs_rowBlock_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The left operand's column coordinate is the summation index. -/
theorem lhs_rowBlock_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

/-- The weight's row coordinate is the summation index. -/
theorem rhs_rowBlock_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

/-- The weight's column coordinate is the output's column. -/
theorem rhs_rowBlock_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of a row block times the weight: the sum over r of x(p, r) · w(r, q). -/
theorem rowBlock_mul_apply (x : Vec Ideal S5000x128 .f32) (w : Vec Ideal S128x64 .f32) (p : Fin 5000) (q : Fin 64) :
    k0_pay1 (F := Ideal) x w (ix2 p q) = ∑ r : Fin 128, x (ix2 p r) * w (ix2 r q) := by
  unfold k0_pay1
  refine (Ideal.matmul_constant_zero_apply dot_S5000x128_S128x64_S5000x64_1_0_0_1_n_n none _ _ (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_rowBlock_0 _ _
    | ⟨1, _⟩ => exact (lhs_rowBlock_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_rowBlock_0 _ _).trans hk
    | ⟨1, _⟩ => exact rhs_rowBlock_1 _ _)
  rw [truncf_apply, truncf_apply, el, er]

variable (V : (c : Dev nD) → (b : Ref sig .tc) → Buf (Elt Ideal) ((c : Thread nD τ).loc b)) (c : Dev nD)

/-- The zero offset of a whole-buffer access, as a constant function. -/
theorem origin2 : (![0, 0] : Fin 2 → Nat) = fun _ => 0 := funext fun a => by fin_cases a <;> rfl

/-- The three index maps over the ten grid points: at point t the row block of x and of the output is block t,
    along the columns there is one block, and the weight is its one whole block throughout. -/
theorem blockIndex_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row p of x's block at point t is row 5000·t + p of x. -/
theorem xBlock_apply (t : Fin cfg0.N) (p : Fin 5000) (r : Fin 128) (i : Fin 50000) (hi : i.val = t.val * 5000 + p.val) :
    (iblk0 V c 0 t : Vec Ideal S5000x128 .f32) (ix2 p r) = (V c main_arg0 : S50000x128.Idx → EReal) (ix2 i r) := by
  obtain ⟨e0, e1, e2, e3, e4, e5⟩ := blockIndex_facts t
  unfold iblk0
  rw [View.read_apply]
  show V c main_arg0 _ = V c main_arg0 _
  congr 1
  funext a
  apply Fin.ext
  match a with
  | ⟨0, _⟩ => show win0_0.index t (0 : Fin 2) * 5000 + 1 * p.val = i.val; omega
  | ⟨1, _⟩ => show win0_0.index t (1 : Fin 2) * 128 + 1 * r.val = r.val; omega

/-- The weight's block at every point is the weight. -/
theorem wBlock_apply (t : Fin cfg0.N) (r : Fin 128) (q : Fin 64) :
    (iblk0 V c 1 t : Vec Ideal S128x64 .f32) (ix2 r q) = (V c main_arg3 : S128x64.Idx → EReal) (ix2 r q) := by
  obtain ⟨e0, e1, e2, e3, e4, e5⟩ := blockIndex_facts t
  unfold iblk0
  rw [View.read_apply]
  show V c main_arg3 _ = V c main_arg3 _
  congr 1
  funext a
  apply Fin.ext
  match a with
  | ⟨0, _⟩ => show win0_1.index t (0 : Fin 2) * 128 + 1 * r.val = r.val; omega
  | ⟨1, _⟩ => show win0_1.index t (1 : Fin 2) * 64 + 1 * q.val = q.val; omega

/-- What point t writes back is block t of the product of the two arrays. -/
theorem flushed_rowBlock (t : Fin cfg0.N) :
    (dat0 (F := Ideal) V c).flushed 2 t = ((cfg0.win 2).blk t).view.read (Elt Ideal)
      (Cert.Spec.proj (V c main_arg0 : S50000x128.Idx → EReal) (V c main_arg3 : S128x64.Idx → EReal)) := by
  show (cfg0.win 2).cut (grid0.coords t) ((dat0 (F := Ideal) V c).after 2 t) = _
  rw [after0_2]
  unfold out0_2
  rw [View.canon_unit_zero origin2]
  simp only [View.ld_unit_zero (S := S5000x128) origin2, View.ld_unit_zero (S := S128x64) origin2]
  obtain ⟨e0, e1, e2, e3, e4, e5⟩ := blockIndex_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = Cert.Spec.proj (V c main_arg0 : S50000x128.Idx → EReal) (V c main_arg3 : S128x64.Idx → EReal) (((cfg0.win 2).blk t).view.emb (ix2 p q))
  refine (rowBlock_mul_apply (iblk0 V c 0 t) (iblk0 V c 1 t) p q).trans ?_
  unfold Cert.Spec.proj
  refine Finset.sum_congr rfl fun r _ => ?_
  have hrow : ((((cfg0.win 2).blk t).view.emb (ix2 p q)) 0).val = t.val * 5000 + p.val := by
    show win0_2.index t (0 : Fin 2) * 5000 + 1 * p.val = _; omega
  have hcol : (((cfg0.win 2).blk t).view.emb (ix2 p q)) 1 = q := Fin.ext (by
    show win0_2.index t (1 : Fin 2) * 64 + 1 * q.val = q.val; omega)
  exact congrArg₂ (· * ·) (xBlock_apply V c t p r _ hrow) ((wBlock_apply V c t r q).trans (by rw [hcol]))

/-- An index of the output array is in point t's block iff each coordinate is in the block's range on its axis. -/
theorem mem_rowBlock (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row n of the output lies in the block of point n / 5000, and every point writes its block back. -/
theorem rows_covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show _ < grid0.N; rw [N_0]; omega⟩, rfl⟩
  obtain ⟨e0, e1, e2, e3, e4, e5⟩ := blockIndex_facts t
  refine ⟨t, flush0_2 t, ?_⟩
  rw [mem_rowBlock]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

end FirstProj

variable (V : (c : Dev nD) → (b : Ref sig .tc) → Buf (Elt Ideal) ((c : Thread nD τ).loc b)) (c : Dev nD)

/-- After the ten points the output array is the matrix product of the two input arrays. -/
theorem proj0 : ((dat0 (F := Ideal) V c).arrAt 2 cfg0.N : S50000x64.Idx → EReal)
    = Cert.Spec.proj (V c main_arg0 : S50000x128.Idx → EReal) (V c main_arg3 : S128x64.Idx → EReal) :=
  (dat0 (F := Ideal) V c).arrAt_eq_of_cover 2 _ (fun t _ => FirstProj.flushed_rowBlock V c t) FirstProj.rows_covered

end Cert.KernelIdeal.RegVal

end
-- ==== Proof.Comb1.lean ====
import proofs.«411616_j90108413870647_1_alg».proof.Proof.Gen.KernelIdeal.Frame
import proofs.«411616_j90108413870647_1_alg».proof.Proof.Spec
import Idealize.ShloMosaic.Lib.ValueIdx
import Idealize.ShloMosaic.Lib.Pipeline.Value

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat)

/-!
  The combine step of one layer, read off the pipelined region index by index.

  The region walks ten row blocks of 5000 rows. At each block the body forms, entry by entry,
  max(agg + hp · s + b, 0): the aggregate block and the self-loop block are taken as they are, the scale column is
  repeated along the 64 features, the bias row is repeated along the 5000 rows. Three of the inputs and the output
  move together through the row blocks; the bias has one block, the same at every point. So what each point writes back
  is its block of ONE function of the four whole arrays, and since the ten blocks tile the 50000 rows the output array
  ends holding that function everywhere.
-/

/-- The body's value at row p, column q of a block: the aggregate plus the self-loop term scaled by the row's
    factor plus the column's bias, clipped below at zero. -/
private theorem combine_block_apply (x0 x1 : Vec Ideal S5000x64 .f32) (x2 : Vec Ideal S5000x1 .f32) (x3 : Vec Ideal S1x64 .f32)
    (p : Fin 5000) (q : Fin 64) :
    k1_pay1 (F := Ideal) x0 x1 x2 x3 (ix2 p q)
      = max (x0 (ix2 p q) + x1 (ix2 p q) * x2 (ix2 p (0 : Fin 1)) + x3 (ix2 (0 : Fin 1) q))
          (Ideal.ofBits .f32 0x00000000#32) := by
  unfold k1_pay1
  simp only [shapeCast_self]
  rw [maximumf_apply, addf_apply, addf_apply, mulf_apply, broadcast_apply]
  rw [broadcastTo_apply x2 broadcasts_S5000x1_S5000x64 (ix2 p q) (ix2 p (0 : Fin 1))
        (fun a => by match a with | ⟨0, _⟩ => rfl | ⟨1, _⟩ => rfl),
      broadcastTo_apply x3 broadcasts_S1x64_S5000x64 (ix2 p q) (ix2 (0 : Fin 1) q)
        (fun a => by match a with | ⟨0, _⟩ => rfl | ⟨1, _⟩ => rfl)]
  rfl

/-- A block entry whose four inputs are the arrays' entries at an index i is the combine function at i. -/
private theorem combine_block_eq_comb (agg hp : S50000x64.Idx → EReal) (s : S50000x1.Idx → EReal) (b : S1x64.Idx → EReal)
    (x0 x1 : Vec Ideal S5000x64 .f32) (x2 : Vec Ideal S5000x1 .f32) (x3 : Vec Ideal S1x64 .f32)
    (j : S5000x64.Idx) (i : S50000x64.Idx)
    (h0 : x0 j = agg i) (h1 : x1 j = hp i)
    (h2 : x2 (ix2 (n0 := 5000) (j 0) (0 : Fin 1)) = s (ix2 (n0 := 50000) (i 0) (0 : Fin 1)))
    (h3 : x3 (ix2 (n1 := 64) (0 : Fin 1) (j 1)) = b (ix2 (n1 := 64) (0 : Fin 1) (i 1))) :
    k1_pay1 (F := Ideal) x0 x1 x2 x3 j = Cert.Spec.comb agg hp s b i := by
  obtain ⟨p, q, rfl⟩ : ∃ (p : Fin 5000) (q : Fin 64), j = ix2 p q := ⟨j 0, j 1, eq_ix2 j⟩
  have h2' : x2 (ix2 p (0 : Fin 1)) = s (ix2 (n0 := 50000) (i 0) (0 : Fin 1)) := h2
  have h3' : x3 (ix2 (0 : Fin 1) q) = b (ix2 (n1 := 64) (0 : Fin 1) (i 1)) := h3
  rw [combine_block_apply, h0, h1, h2', h3']
  rfl

/-- A block's rectangle starts at offset zero on both axes. -/
private theorem block_offsets_zero : (![0, 0] : Fin 2 → Nat) = fun _ => 0 :=
  funext fun a => by match a with | ⟨0, _⟩ => rfl | ⟨1, _⟩ => rfl

/-- Where each window's block sits at grid point t: the three row-blocked inputs move with the output's row block,
    the bias keeps its one block, and the output's row block is the point itself, below ten. -/
private theorem block_indices : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

variable (V : (c : Dev nD) → (b : Ref sig .tc) → Buf (Elt Ideal) ((c : Thread nD τ).loc b)) (c : Dev nD)

/-- What grid point t writes back is block t of the combine function of the four input arrays. -/
private theorem flushed_eq_comb (t : Fin cfg1.N) :
    (dat1 (F := Ideal) V c).flushed 4 t = ((cfg1.win 4).blk t).view.read (Elt Ideal)
      (Cert.Spec.comb (V c main_v49 : S50000x64.Idx → EReal) (V c main_v31 : S50000x64.Idx → EReal)
        (V c main_v30 : S50000x1.Idx → EReal) (V c main_v50 : S1x64.Idx → EReal)) := by
  show (cfg1.win 4).cut (grid1.coords t) ((dat1 V c).after 4 t) = _
  rw [after1_4]
  unfold out1_4
  rw [View.canon_unit_zero block_offsets_zero]
  simp only [View.ld_unit_zero (S := S5000x64) block_offsets_zero, View.ld_unit_zero (S := S5000x1) block_offsets_zero,
    View.ld_unit_zero (S := S1x64) block_offsets_zero]
  obtain ⟨e00, e01, e10, e11, e20, e21, e30, e31, e40, e41⟩ := block_indices t
  funext j
  show k1_pay1 (F := Ideal) (iblk1 V c 0 t) (iblk1 V c 1 t) (iblk1 V c 2 t) (iblk1 V c 3 t) j
    = Cert.Spec.comb (V c main_v49 : S50000x64.Idx → EReal) (V c main_v31 : S50000x64.Idx → EReal)
        (V c main_v30 : S50000x1.Idx → EReal) (V c main_v50 : S1x64.Idx → EReal) (((cfg1.win 4).blk t).view.emb j)
  refine combine_block_eq_comb _ _ _ _ _ _ _ _ j _ ?_ ?_ ?_ ?_
  · show V c main_v49 (((cfg1.win 0).blk t).view.emb j) = V c main_v49 (((cfg1.win 4).blk t).view.emb j)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  · show V c main_v31 (((cfg1.win 1).blk t).view.emb j) = V c main_v31 (((cfg1.win 4).blk t).view.emb j)
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  · show V c main_v30 (((cfg1.win 2).blk t).view.emb (ix2 (n0 := 5000) (j 0) (0 : Fin 1)))
      = V c main_v30 (ix2 (n0 := 50000) ((((cfg1.win 4).blk t).view.emb j) 0) (0 : Fin 1))
    refine congrArg _ (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v50 (((cfg1.win 3).blk t).view.emb (ix2 (n1 := 64) (0 : Fin 1) (j 1)))
      = V c main_v50 (ix2 (n1 := 64) (0 : Fin 1) ((((cfg1.win 4).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega

/-- An index of the output array is in grid point t's block exactly when each coordinate is in the block's range on
    its axis. -/
private theorem mem_block_iff (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v51).slice (win1_4.rect t)).set ↔ _
  rw [View.set_slice_whole, Rect.mem_set_unit]
  exact Iff.rfl

/-- The ten row blocks tile the output: row r lies in the block of grid point r / 5000, which is written back. -/
private theorem blocks_cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : (i 0).val / 5000 < grid1.N := by rw [N_1]; omega
  obtain ⟨-, -, -, -, -, -, -, -, e40, e41⟩ := block_indices ⟨(i 0).val / 5000, hN⟩
  have e40' : win1_4.index ⟨(i 0).val / 5000, hN⟩ (0 : Fin 2) = (i 0).val / 5000 := e40
  refine ⟨⟨(i 0).val / 5000, hN⟩, flush1_4 _, ?_⟩
  rw [mem_block_iff]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    omega
  | ⟨1, _⟩ =>
    show win1_4.index ⟨(i 0).val / 5000, hN⟩ (1 : Fin 2) * 64 ≤ (i 1).val
      ∧ (i 1).val < win1_4.index ⟨(i 0).val / 5000, hN⟩ (1 : Fin 2) * 64 + 64
    omega

/-- After the region's ten grid points the output array is the combine function of the four input arrays as the
    region found them: every block written back is that function's block, and the blocks tile the array. -/
theorem comb1 : ((dat1 (F := Ideal) V c).arrAt 4 cfg1.N : S50000x64.Idx → EReal)
    = Cert.Spec.comb (V c main_v49 : S50000x64.Idx → EReal) (V c main_v31 : S50000x64.Idx → EReal)
        (V c main_v30 : S50000x1.Idx → EReal) (V c main_v50 : S1x64.Idx → EReal) :=
  (dat1 (F := Ideal) V c).arrAt_eq_of_cover 4
    (Cert.Spec.comb (V c main_v49 : S50000x64.Idx → EReal) (V c main_v31 : S50000x64.Idx → EReal)
      (V c main_v30 : S50000x1.Idx → EReal) (V c main_v50 : S1x64.Idx → EReal))
    (fun t _ => flushed_eq_comb V c t) blocks_cover

end Cert.KernelIdeal.RegVal

end
-- ==== Proof.Chain1.lean ====
/-
  The first layer on the kernel side: from the launch to the contents after the first combine region.

  The first host stretch reads the edge list once: the edges' sources and targets, each node's inverse square root
  degree, the edge weights and the self-loop weights. The projection region leaves the product of the node features
  and the first weight; the next host stretch the aggregate over incoming edges and the bias as a row; the combine
  region the first layer's output. The buffers the later layers read pass through unchanged.
-/
import proofs.«411616_j90108413870647_1_alg».proof.Proof.ChainDefs
import proofs.«411616_j90108413870647_1_alg».proof.Proof.Keep
import proofs.«411616_j90108413870647_1_alg».proof.Proof.Proj0
import proofs.«411616_j90108413870647_1_alg».proof.Proof.Comb1
import Idealize.ShloMosaic.Lib.ValueIdx

noncomputable section

namespace Cert.KernelIdeal.Chain

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 1600000 in
/-- After the first host stretch the contents hold what it computes from the edge list, and the arguments as launched. -/
theorem live1 : Live m c (W1 m ρ c) where
  v1 := by dsimp only [W1, hostOps0]; after_results_simp <;> rfl
  v3 := by dsimp only [W1, hostOps0]; after_results_simp <;> rfl
  v28 := by dsimp only [W1, hostOps0]; after_results_simp <;> rfl
  v30 := by dsimp only [W1, hostOps0]; after_results_simp <;> rfl
  g2 := (Keep.keep0 (W0 m ρ c) main_arg2 (by decide)).trans rfl
  g5 := (Keep.keep0 (W0 m ρ c) main_arg5 (by decide)).trans rfl
  g6 := (Keep.keep0 (W0 m ρ c) main_arg6 (by decide)).trans rfl
  g7 := (Keep.keep0 (W0 m ρ c) main_arg7 (by decide)).trans rfl
  g8 := (Keep.keep0 (W0 m ρ c) main_arg8 (by decide)).trans rfl
  g9 := (Keep.keep0 (W0 m ρ c) main_arg9 (by decide)).trans rfl
  g10 := (Keep.keep0 (W0 m ρ c) main_arg10 (by decide)).trans rfl

set_option maxHeartbeats 1600000 in
theorem st4 : Live m c (W4 m ρ c) ∧ (W4 m ρ c (Proc.devRef .tc main_v51) : S50000x64.Idx → EReal) = H1 m c := by
  have L1 := live1 m ρ c
  have x0 : (V1 m ρ c main_arg0 : S50000x128.Idx → EReal) = a0 m c := (Keep.keep0 (W0 m ρ c) main_arg0 (by decide)).trans rfl
  have x3 : (V1 m ρ c main_arg3 : S128x64.Idx → EReal) = a3 m c := (Keep.keep0 (W0 m ρ c) main_arg3 (by decide)).trans rfl
  have x4 : (W1 m ρ c (Proc.devRef .tc main_arg4) : S64.Idx → EReal) = a4 m c := (Keep.keep0 (W0 m ρ c) main_arg4 (by decide)).trans rfl
  -- the projection region
  have La : Live m c (W2 m ρ c) := L1.congr m c
      (W2_of_ne m ρ c main_v1 (by decide))
      (W2_of_ne m ρ c main_v3 (by decide))
      (W2_of_ne m ρ c main_v28 (by decide))
      (W2_of_ne m ρ c main_v30 (by decide))
      (W2_of_ne m ρ c main_arg2 (by decide))
      (W2_of_ne m ρ c main_arg5 (by decide))
      (W2_of_ne m ρ c main_arg6 (by decide))
      (W2_of_ne m ρ c main_arg7 (by decide))
      (W2_of_ne m ρ c main_arg8 (by decide))
      (W2_of_ne m ρ c main_arg9 (by decide))
      (W2_of_ne m ρ c main_arg10 (by decide))
  have x4a : W2 m ρ c (Proc.devRef .tc main_arg4) = W1 m ρ c (Proc.devRef .tc main_arg4) := W2_of_ne m ρ c main_arg4 (by decide)
  have ep : (W2 m ρ c (Proc.devRef .tc main_v31) : S50000x64.Idx → EReal) = Cert.Spec.proj (a0 m c) (a3 m c) :=
    (W2_arr m ρ c 2).trans ((RegVal.proj0 (V1 m ρ) c).trans (by rw [x0, x3]))
  -- the host stretch
  have Lb : Live m c (W3 m ρ c) := La.congr m c
      (Keep.keep1 _ main_v1 (by decide))
      (Keep.keep1 _ main_v3 (by decide))
      (Keep.keep1 _ main_v28 (by decide))
      (Keep.keep1 _ main_v30 (by decide))
      (Keep.keep1 _ main_arg2 (by decide))
      (Keep.keep1 _ main_arg5 (by decide))
      (Keep.keep1 _ main_arg6 (by decide))
      (Keep.keep1 _ main_arg7 (by decide))
      (Keep.keep1 _ main_arg8 (by decide))
      (Keep.keep1 _ main_arg9 (by decide))
      (Keep.keep1 _ main_arg10 (by decide))
  have eagg : (W3 m ρ c (Proc.devRef .tc main_v49) : S50000x64.Idx → EReal)
      = Glue.aggOf (F := Ideal) (W2 m ρ c (Proc.devRef .tc main_v31)) (W2 m ρ c (Proc.devRef .tc main_v1))
          (W2 m ρ c (Proc.devRef .tc main_v3)) (W2 m ρ c (Proc.devRef .tc main_v28)) := by
    dsimp only [W3, hostOps1]; after_results_simp <;> rfl
  have erow : (W3 m ρ c (Proc.devRef .tc main_v50) : S1x64.Idx → EReal)
      = Glue.rowOf (F := Ideal) (W2 m ρ c (Proc.devRef .tc main_arg4)) := by
    dsimp only [W3, hostOps1]; after_results_simp <;> rfl
  have ep' : W3 m ρ c (Proc.devRef .tc main_v31) = W2 m ρ c (Proc.devRef .tc main_v31) := Keep.keep1 _ main_v31 (by decide)
  -- the combine region
  have Lc : Live m c (W4 m ρ c) := Lb.congr m c
      (W4_of_ne m ρ c main_v1 (by decide))
      (W4_of_ne m ρ c main_v3 (by decide))
      (W4_of_ne m ρ c main_v28 (by decide))
      ((W4_arr m ρ c 2).trans (((dat1 (V3 m ρ) c).arrAt_in 2 rfl _).trans (A_eq1 (V3 m ρ) c 2)))
      (W4_of_ne m ρ c main_arg2 (by decide))
      (W4_of_ne m ρ c main_arg5 (by decide))
      (W4_of_ne m ρ c main_arg6 (by decide))
      (W4_of_ne m ρ c main_arg7 (by decide))
      (W4_of_ne m ρ c main_arg8 (by decide))
      (W4_of_ne m ρ c main_arg9 (by decide))
      (W4_of_ne m ρ c main_arg10 (by decide))
  have ec : (W4 m ρ c (Proc.devRef .tc main_v51) : S50000x64.Idx → EReal)
      = Cert.Spec.comb (V3 m ρ c main_v49 : S50000x64.Idx → EReal) (V3 m ρ c main_v31 : S50000x64.Idx → EReal)
          (V3 m ρ c main_v30 : S50000x1.Idx → EReal) (V3 m ρ c main_v50 : S1x64.Idx → EReal) :=
    (W4_arr m ρ c 4).trans (RegVal.comb1 (V3 m ρ) c)
  refine ⟨Lc, ec.trans ?_⟩
  have y1 : (V3 m ρ c main_v49 : S50000x64.Idx → EReal)
      = Glue.aggOf (F := Ideal) (Cert.Spec.proj (a0 m c) (a3 m c)) (SRC m c) (DST m c) (NORM m c) := by
    refine eagg.trans ?_; rw [ep, La.v1, La.v3, La.v28]
  have y2 : (V3 m ρ c main_v31 : S50000x64.Idx → EReal) = Cert.Spec.proj (a0 m c) (a3 m c) := ep'.trans ep
  have y3 : (V3 m ρ c main_v30 : S50000x1.Idx → EReal) = D2 m c := Lb.v30
  have y4 : (V3 m ρ c main_v50 : S1x64.Idx → EReal) = Glue.rowOf (a4 m c) := by
    refine erow.trans ?_; rw [x4a, x4]
  rw [y1, y2, y3, y4]; rfl

end Cert.KernelIdeal.Chain

end
-- ==== Proof.Proj2.lean ====
/-
  This region of the kernel program multiplies its feature array by its weight array, ten blocks of 5000 rows at a time.

  * At a point of the grid the body holds one block x of 5000 rows of the features and the whole 64 × 64 weight w,
    narrows both (a change of float format, the identity on extended reals), and stores their product into a zero
    accumulator: entry (p, q) of the stored block is the sum over r of x(p, r) · w(r, q).
  * Point t's feature block is rows t·5000 … t·5000 + 4999 of the feature array, and its output block is the same rows
    of the output array; the weight block is the whole weight array at every point. So what point t writes back is
    block t of the product of the two arrays.
  * Row r of the output lies in the block of point r / 5000, so the ten blocks cover the output array, which therefore
    ends holding the product.
-/
import proofs.«411616_j90108413870647_1_alg».proof.Proof.Gen.KernelIdeal.Frame
import proofs.«411616_j90108413870647_1_alg».proof.Proof.Spec
import Idealize.ShloMosaic.Lib.ValueIdx
import Idealize.ShloMosaic.Lib.Pipeline.Value
import Idealize.ShloMosaic.PureOps.Ideal.Laws

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat)

/-! ## The block product's operand indices, axis by axis -/

private theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's payload at row p, column q of the block: the sum over r of x(p, r) · w(r, q). -/
private theorem pay_apply (x : Vec Ideal S5000x64 .f32) (w : Vec Ideal S64x64 .f32) (p : Fin 5000) (q : Fin 64) :
    (k2_pay1 (F := Ideal) x w (ix2 p q) : EReal)
      = ∑ r : Fin 64, (x (ix2 p r) : EReal) * (w (ix2 r q) : EReal) := by
  unfold k2_pay1
  rw [shapeCast_self]
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [truncf_apply, truncf_apply, el, er]

variable (V : (c : Dev nD) → (b : Ref sig .tc) → Buf (Elt Ideal) ((c : Thread nD τ).loc b)) (c : Dev nD)

/-- A block's origin is the zero offset. -/
private theorem origin_zero : (![0, 0] : Fin 2 → Nat) = fun _ => 0 := funext fun a => by fin_cases a <;> rfl

/-- The product of a block of rows: when the block x holds rows b·5000 … b·5000+4999 of X and the block w is all of W,
    the payload at (p, q) is the product of X and W at (b·5000 + p, q). -/
private theorem pay_rows (X : S50000x64.Idx → EReal) (W : S64x64.Idx → EReal)
    (x : Vec Ideal S5000x64 .f32) (w : Vec Ideal S64x64 .f32) (b : Nat) (hb : b * 5000 + 5000 ≤ 50000)
    (hx : ∀ (p : Fin 5000) (r : Fin 64), (x (ix2 p r) : EReal) = X (ix2 (⟨b * 5000 + p.val, by omega⟩ : Fin 50000) r))
    (hw : ∀ (r q : Fin 64), (w (ix2 r q) : EReal) = W (ix2 r q))
    (p : Fin 5000) (q : Fin 64) :
    (k2_pay1 (F := Ideal) x w (ix2 p q) : EReal)
      = Cert.Spec.proj X W (ix2 (⟨b * 5000 + p.val, by omega⟩ : Fin 50000) q) := by
  rw [pay_apply]
  unfold Cert.Spec.proj
  exact Finset.sum_congr rfl fun r _ => by rw [hx, hw]

/-- The printed index maps over the grid: the feature window and the output window move together, one block of rows
    per point; the weight window stays on its one block. -/
private theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- What point t writes back is block t of the product of the two input arrays. -/
private theorem flushed_eq (t : Fin cfg2.N) :
    (dat2 (F := Ideal) V c).flushed 2 t = ((cfg2.win 2).blk t).view.read (Elt Ideal)
      (Cert.Spec.proj (V c main_v51 : S50000x64.Idx → EReal) (V c main_arg5 : S64x64.Idx → EReal)) := by
  show (cfg2.win 2).cut (grid2.coords t) ((dat2 V c).after 2 t) = _
  rw [after2_2]
  unfold out2_2
  rw [View.canon_unit_zero origin_zero]
  simp only [View.ld_unit_zero (S := S5000x64) origin_zero, View.ld_unit_zero (S := S64x64) origin_zero]
  obtain ⟨e0, e1, e2, e3, e4, e5, e6⟩ := index_facts t
  funext j
  obtain ⟨p, q, rfl⟩ : ∃ (p : Fin 5000) (q : Fin 64), j = ix2 p q := ⟨j 0, j 1, eq_ix2 j⟩
  show (k2_pay1 (F := Ideal) (iblk2 V c 0 t) (iblk2 V c 1 t) (ix2 p q) : EReal)
    = Cert.Spec.proj (V c main_v51 : S50000x64.Idx → EReal) (V c main_arg5 : S64x64.Idx → EReal) (((cfg2.win 2).blk t).view.emb (ix2 p q))
  refine (pay_rows (V c main_v51) (V c main_arg5) (iblk2 V c 0 t) (iblk2 V c 1 t) t.val (by omega) ?_ ?_ p q).trans ?_
  · intro p r
    show V c main_v51 (((cfg2.win 0).blk t).view.emb (ix2 p r)) = V c main_v51 (ix2 (⟨t.val * 5000 + p.val, by omega⟩ : Fin 50000) r)
    refine congrArg (V c main_v51) (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * r.val = r.val; omega
  · intro r q
    show V c main_arg5 (((cfg2.win 1).blk t).view.emb (ix2 r q)) = V c main_arg5 (ix2 r q)
    refine congrArg (V c main_arg5) (funext fun a => Fin.ext ?_)
    match a with
    | ⟨0, _⟩ => show win2_1.index t (0 : Fin 2) * 64 + 1 * r.val = r.val; omega
    | ⟨1, _⟩ => show win2_1.index t (1 : Fin 2) * 64 + 1 * q.val = q.val; omega
  · refine congrArg (Cert.Spec.proj (V c main_v51 : S50000x64.Idx → EReal) (V c main_arg5 : S64x64.Idx → EReal)) (funext fun a => Fin.ext ?_)
    match a with
    | ⟨0, _⟩ => show t.val * 5000 + p.val = win2_2.index t (0 : Fin 2) * 5000 + 1 * p.val; omega
    | ⟨1, _⟩ => show q.val = win2_2.index t (1 : Fin 2) * 64 + 1 * q.val; omega

/-- An index of the array is in point t's block iff each coordinate is in the block's range on its axis. -/
private theorem mem_block (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v52).slice (win2_2.rect t)).set ↔ _
  rw [View.set_slice_whole, Rect.mem_set_unit]
  exact Iff.rfl

/-- Every index of the output array is in some point's block: row r is in the block of point r / 5000. -/
private theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have hlt : (i 0).val / 5000 < cfg2.N := (by omega : (i 0).val / 5000 < 10).trans_eq hN.symm
  refine ⟨⟨(i 0).val / 5000, hlt⟩, flush2_2 _, ?_⟩
  obtain ⟨e0, e1, e2, e3, e4, e5, e6⟩ := index_facts ⟨(i 0).val / 5000, hlt⟩
  have e4' : win2_2.index ⟨(i 0).val / 5000, hlt⟩ (0 : Fin 2) = (i 0).val / 5000 := e4
  rw [mem_block]
  intro a
  match a with
  | ⟨0, _⟩ => show win2_2.index ⟨(i 0).val / 5000, hlt⟩ (0 : Fin 2) * 5000 ≤ (i 0).val ∧ (i 0).val < win2_2.index ⟨(i 0).val / 5000, hlt⟩ (0 : Fin 2) * 5000 + 5000; omega
  | ⟨1, _⟩ => show win2_2.index ⟨(i 0).val / 5000, hlt⟩ (1 : Fin 2) * 64 ≤ (i 1).val ∧ (i 1).val < win2_2.index ⟨(i 0).val / 5000, hlt⟩ (1 : Fin 2) * 64 + 64; omega

/-- After its ten points the region's output array is the product of its two input arrays. -/
theorem proj2 : ((dat2 (F := Ideal) V c).arrAt 2 cfg2.N : S50000x64.Idx → EReal)
    = Cert.Spec.proj (V c main_v51 : S50000x64.Idx → EReal) (V c main_arg5 : S64x64.Idx → EReal) :=
  (dat2 (F := Ideal) V c).arrAt_eq_of_cover 2
    (Cert.Spec.proj (V c main_v51 : S50000x64.Idx → EReal) (V c main_arg5 : S64x64.Idx → EReal))
    (fun t _ => flushed_eq V c t) covered

end Cert.KernelIdeal.RegVal

end
-- ==== Proof.Comb3.lean ====
import proofs.«411616_j90108413870647_1_alg».proof.Proof.Gen.KernelIdeal.Frame
import proofs.«411616_j90108413870647_1_alg».proof.Proof.Spec
import Idealize.ShloMosaic.Lib.ValueIdx
import Idealize.ShloMosaic.Lib.Pipeline.Value

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat)

/-!
  The combine step of one layer, read off the pipelined region index by index.

  The region walks ten row blocks of 5000 rows. At each block the body forms, entry by entry,
  max(agg + hp · s + b, 0): the aggregate block and the self-loop block are taken as they are, the scale column is
  repeated along the 64 features, the bias row is repeated along the 5000 rows. Three of the inputs and the output
  move together through the row blocks; the bias has one block, the same at every point. So what each point writes back
  is its block of ONE function of the four whole arrays, and since the ten blocks tile the 50000 rows the output array
  ends holding that function everywhere.
-/

/-- The body's value at row p, column q of a block: the aggregate plus the self-loop term scaled by the row's
    factor plus the column's bias, clipped below at zero. -/
private theorem combine_block_apply (x0 x1 : Vec Ideal S5000x64 .f32) (x2 : Vec Ideal S5000x1 .f32) (x3 : Vec Ideal S1x64 .f32)
    (p : Fin 5000) (q : Fin 64) :
    k3_pay1 (F := Ideal) x0 x1 x2 x3 (ix2 p q)
      = max (x0 (ix2 p q) + x1 (ix2 p q) * x2 (ix2 p (0 : Fin 1)) + x3 (ix2 (0 : Fin 1) q))
          (Ideal.ofBits .f32 0x00000000#32) := by
  unfold k3_pay1
  simp only [shapeCast_self]
  rw [maximumf_apply, addf_apply, addf_apply, mulf_apply, broadcast_apply]
  rw [broadcastTo_apply x2 broadcasts_S5000x1_S5000x64 (ix2 p q) (ix2 p (0 : Fin 1))
        (fun a => by match a with | ⟨0, _⟩ => rfl | ⟨1, _⟩ => rfl),
      broadcastTo_apply x3 broadcasts_S1x64_S5000x64 (ix2 p q) (ix2 (0 : Fin 1) q)
        (fun a => by match a with | ⟨0, _⟩ => rfl | ⟨1, _⟩ => rfl)]
  rfl

/-- A block entry whose four inputs are the arrays' entries at an index i is the combine function at i. -/
private theorem combine_block_eq_comb (agg hp : S50000x64.Idx → EReal) (s : S50000x1.Idx → EReal) (b : S1x64.Idx → EReal)
    (x0 x1 : Vec Ideal S5000x64 .f32) (x2 : Vec Ideal S5000x1 .f32) (x3 : Vec Ideal S1x64 .f32)
    (j : S5000x64.Idx) (i : S50000x64.Idx)
    (h0 : x0 j = agg i) (h1 : x1 j = hp i)
    (h2 : x2 (ix2 (n0 := 5000) (j 0) (0 : Fin 1)) = s (ix2 (n0 := 50000) (i 0) (0 : Fin 1)))
    (h3 : x3 (ix2 (n1 := 64) (0 : Fin 1) (j 1)) = b (ix2 (n1 := 64) (0 : Fin 1) (i 1))) :
    k3_pay1 (F := Ideal) x0 x1 x2 x3 j = Cert.Spec.comb agg hp s b i := by
  obtain ⟨p, q, rfl⟩ : ∃ (p : Fin 5000) (q : Fin 64), j = ix2 p q := ⟨j 0, j 1, eq_ix2 j⟩
  have h2' : x2 (ix2 p (0 : Fin 1)) = s (ix2 (n0 := 50000) (i 0) (0 : Fin 1)) := h2
  have h3' : x3 (ix2 (0 : Fin 1) q) = b (ix2 (n1 := 64) (0 : Fin 1) (i 1)) := h3
  rw [combine_block_apply, h0, h1, h2', h3']
  rfl

/-- A block's rectangle starts at offset zero on both axes. -/
private theorem block_offsets_zero : (![0, 0] : Fin 2 → Nat) = fun _ => 0 :=
  funext fun a => by match a with | ⟨0, _⟩ => rfl | ⟨1, _⟩ => rfl

/-- Where each window's block sits at grid point t: the three row-blocked inputs move with the output's row block,
    the bias keeps its one block, and the output's row block is the point itself, below ten. -/
private theorem block_indices : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

variable (V : (c : Dev nD) → (b : Ref sig .tc) → Buf (Elt Ideal) ((c : Thread nD τ).loc b)) (c : Dev nD)

/-- What grid point t writes back is block t of the combine function of the four input arrays. -/
private theorem flushed_eq_comb (t : Fin cfg3.N) :
    (dat3 (F := Ideal) V c).flushed 4 t = ((cfg3.win 4).blk t).view.read (Elt Ideal)
      (Cert.Spec.comb (V c main_v70 : S50000x64.Idx → EReal) (V c main_v52 : S50000x64.Idx → EReal)
        (V c main_v30 : S50000x1.Idx → EReal) (V c main_v71 : S1x64.Idx → EReal)) := by
  show (cfg3.win 4).cut (grid3.coords t) ((dat3 V c).after 4 t) = _
  rw [after3_4]
  unfold out3_4
  rw [View.canon_unit_zero block_offsets_zero]
  simp only [View.ld_unit_zero (S := S5000x64) block_offsets_zero, View.ld_unit_zero (S := S5000x1) block_offsets_zero,
    View.ld_unit_zero (S := S1x64) block_offsets_zero]
  obtain ⟨e00, e01, e10, e11, e20, e21, e30, e31, e40, e41⟩ := block_indices t
  funext j
  show k3_pay1 (F := Ideal) (iblk3 V c 0 t) (iblk3 V c 1 t) (iblk3 V c 2 t) (iblk3 V c 3 t) j
    = Cert.Spec.comb (V c main_v70 : S50000x64.Idx → EReal) (V c main_v52 : S50000x64.Idx → EReal)
        (V c main_v30 : S50000x1.Idx → EReal) (V c main_v71 : S1x64.Idx → EReal) (((cfg3.win 4).blk t).view.emb j)
  refine combine_block_eq_comb _ _ _ _ _ _ _ _ j _ ?_ ?_ ?_ ?_
  · show V c main_v70 (((cfg3.win 0).blk t).view.emb j) = V c main_v70 (((cfg3.win 4).blk t).view.emb j)
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  · show V c main_v52 (((cfg3.win 1).blk t).view.emb j) = V c main_v52 (((cfg3.win 4).blk t).view.emb j)
    refine congrArg _ (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 64 + 1 * (j 1).val = win3_4.index t (1 : Fin 2) * 64 + 1 * (j 1).val; omega
  · show V c main_v30 (((cfg3.win 2).blk t).view.emb (ix2 (n0 := 5000) (j 0) (0 : Fin 1)))
      = V c main_v30 (ix2 (n0 := 50000) ((((cfg3.win 4).blk t).view.emb j) 0) (0 : Fin 1))
    refine congrArg _ (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_v71 (((cfg3.win 3).blk t).view.emb (ix2 (n1 := 64) (0 : Fin 1) (j 1)))
      = V c main_v71 (ix2 (n1 := 64) (0 : Fin 1) ((((cfg3.win 4).blk t).view.emb j) 1))
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega

/-- An index of the output array is in grid point t's block exactly when each coordinate is in the block's range on
    its axis. -/
private theorem mem_block_iff (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v72).slice (win3_4.rect t)).set ↔ _
  rw [View.set_slice_whole, Rect.mem_set_unit]
  exact Iff.rfl

/-- The ten row blocks tile the output: row r lies in the block of grid point r / 5000, which is written back. -/
private theorem blocks_cover (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : (i 0).val / 5000 < grid3.N := by rw [N_3]; omega
  obtain ⟨-, -, -, -, -, -, -, -, e40, e41⟩ := block_indices ⟨(i 0).val / 5000, hN⟩
  have e40' : win3_4.index ⟨(i 0).val / 5000, hN⟩ (0 : Fin 2) = (i 0).val / 5000 := e40
  refine ⟨⟨(i 0).val / 5000, hN⟩, flush3_4 _, ?_⟩
  rw [mem_block_iff]
  intro a
  match a with
  | ⟨0, _⟩ =>
    show win3_4.index ⟨(i 0).val / 5000, hN⟩ (0 : Fin 2) * 5000 ≤ (i 0).val
      ∧ (i 0).val < win3_4.index ⟨(i 0).val / 5000, hN⟩ (0 : Fin 2) * 5000 + 5000
    omega
  | ⟨1, _⟩ =>
    show win3_4.index ⟨(i 0).val / 5000, hN⟩ (1 : Fin 2) * 64 ≤ (i 1).val
      ∧ (i 1).val < win3_4.index ⟨(i 0).val / 5000, hN⟩ (1 : Fin 2) * 64 + 64
    omega

/-- After the region's ten grid points the output array is the combine function of the four input arrays as the
    region found them: every block written back is that function's block, and the blocks tile the array. -/
theorem comb3 : ((dat3 (F := Ideal) V c).arrAt 4 cfg3.N : S50000x64.Idx → EReal)
    = Cert.Spec.comb (V c main_v70 : S50000x64.Idx → EReal) (V c main_v52 : S50000x64.Idx → EReal)
        (V c main_v30 : S50000x1.Idx → EReal) (V c main_v71 : S1x64.Idx → EReal) :=
  (dat3 (F := Ideal) V c).arrAt_eq_of_cover 4
    (Cert.Spec.comb (V c main_v70 : S50000x64.Idx → EReal) (V c main_v52 : S50000x64.Idx → EReal)
      (V c main_v30 : S50000x1.Idx → EReal) (V c main_v71 : S1x64.Idx → EReal))
    (fun t _ => flushed_eq_comb V c t) blocks_cover

end Cert.KernelIdeal.RegVal

end
-- ==== Proof.Chain2.lean ====
/-
  The second layer on the kernel side: from the contents at the boundary before it to the contents after it.

  The projection region leaves the matrix product of the previous layer's output and the layer's weight in its output
  array; the host stretch gathers its rows at the edges' sources, scales them by the edge weights and adds them into
  the targets' rows, and lays the bias out as a row; the combine region leaves max(aggregate + product · self-loop
  weight + bias, 0). Every other buffer the later layers read passes through unchanged: a region changes only its
  output array (an input array ends as it was entered), a host stretch only the buffers it writes.
-/
import proofs.«411616_j90108413870647_1_alg».proof.Proof.ChainDefs
import proofs.«411616_j90108413870647_1_alg».proof.Proof.Keep
import proofs.«411616_j90108413870647_1_alg».proof.Proof.Proj2
import proofs.«411616_j90108413870647_1_alg».proof.Proof.Comb3
import Idealize.ShloMosaic.Lib.ValueIdx

noncomputable section

namespace Cert.KernelIdeal.Chain

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 1600000 in
theorem st7
    (h : Live m c (W4 m ρ c) ∧ (W4 m ρ c (Proc.devRef .tc main_v51) : S50000x64.Idx → EReal) = H1 m c) :
    Live m c (W7 m ρ c) ∧ (W7 m ρ c (Proc.devRef .tc main_v72) : S50000x64.Idx → EReal) = H2 m c := by
  obtain ⟨hL, hH⟩ := h
  -- the projection region: its output array is the product; its weight ends as entered; the rest are not its arrays
  have La : Live m c (W5 m ρ c) := hL.congr m c
      (W5_of_ne m ρ c main_v1 (by decide))
      (W5_of_ne m ρ c main_v3 (by decide))
      (W5_of_ne m ρ c main_v28 (by decide))
      (W5_of_ne m ρ c main_v30 (by decide))
      (W5_of_ne m ρ c main_arg2 (by decide))
      ((W5_arr m ρ c 1).trans (((dat2 (V4 m ρ) c).arrAt_in 1 rfl _).trans (A_eq2 (V4 m ρ) c 1)))
      (W5_of_ne m ρ c main_arg6 (by decide))
      (W5_of_ne m ρ c main_arg7 (by decide))
      (W5_of_ne m ρ c main_arg8 (by decide))
      (W5_of_ne m ρ c main_arg9 (by decide))
      (W5_of_ne m ρ c main_arg10 (by decide))
  have xh : (V4 m ρ c main_v51 : S50000x64.Idx → EReal) = H1 m c := hH
  have xw : (V4 m ρ c main_arg5 : S64x64.Idx → EReal) = a5 m c := hL.g5
  have ep : (W5 m ρ c (Proc.devRef .tc main_v52) : S50000x64.Idx → EReal) = Cert.Spec.proj (H1 m c) (a5 m c) :=
    (W5_arr m ρ c 2).trans ((RegVal.proj2 (V4 m ρ) c).trans (by rw [xh, xw]))
  -- the host stretch: the aggregate and the bias row; everything else passes through
  have Lb : Live m c (W6 m ρ c) := La.congr m c
      (Keep.keep3 _ main_v1 (by decide))
      (Keep.keep3 _ main_v3 (by decide))
      (Keep.keep3 _ main_v28 (by decide))
      (Keep.keep3 _ main_v30 (by decide))
      (Keep.keep3 _ main_arg2 (by decide))
      (Keep.keep3 _ main_arg5 (by decide))
      (Keep.keep3 _ main_arg6 (by decide))
      (Keep.keep3 _ main_arg7 (by decide))
      (Keep.keep3 _ main_arg8 (by decide))
      (Keep.keep3 _ main_arg9 (by decide))
      (Keep.keep3 _ main_arg10 (by decide))
  have eagg : (W6 m ρ c (Proc.devRef .tc main_v70) : S50000x64.Idx → EReal)
      = Glue.aggOf (F := Ideal) (W5 m ρ c (Proc.devRef .tc main_v52)) (W5 m ρ c (Proc.devRef .tc main_v1))
          (W5 m ρ c (Proc.devRef .tc main_v3)) (W5 m ρ c (Proc.devRef .tc main_v28)) := by
    dsimp only [W6, hostOps3]; after_results_simp <;> rfl
  have erow : (W6 m ρ c (Proc.devRef .tc main_v71) : S1x64.Idx → EReal)
      = Glue.rowOf (F := Ideal) (W5 m ρ c (Proc.devRef .tc main_arg6)) := by
    dsimp only [W6, hostOps3]; after_results_simp <;> rfl
  have ep' : W6 m ρ c (Proc.devRef .tc main_v52) = W5 m ρ c (Proc.devRef .tc main_v52) := Keep.keep3 _ main_v52 (by decide)
  -- the combine region: its output array; the self-loop weights, an input array, end as entered
  have Lc : Live m c (W7 m ρ c) := Lb.congr m c
      (W7_of_ne m ρ c main_v1 (by decide))
      (W7_of_ne m ρ c main_v3 (by decide))
      (W7_of_ne m ρ c main_v28 (by decide))
      ((W7_arr m ρ c 2).trans (((dat3 (V6 m ρ) c).arrAt_in 2 rfl _).trans (A_eq3 (V6 m ρ) c 2)))
      (W7_of_ne m ρ c main_arg2 (by decide))
      (W7_of_ne m ρ c main_arg5 (by decide))
      (W7_of_ne m ρ c main_arg6 (by decide))
      (W7_of_ne m ρ c main_arg7 (by decide))
      (W7_of_ne m ρ c main_arg8 (by decide))
      (W7_of_ne m ρ c main_arg9 (by decide))
      (W7_of_ne m ρ c main_arg10 (by decide))
  have ec : (W7 m ρ c (Proc.devRef .tc main_v72) : S50000x64.Idx → EReal)
      = Cert.Spec.comb (V6 m ρ c main_v70 : S50000x64.Idx → EReal) (V6 m ρ c main_v52 : S50000x64.Idx → EReal)
          (V6 m ρ c main_v30 : S50000x1.Idx → EReal) (V6 m ρ c main_v71 : S1x64.Idx → EReal) :=
    (W7_arr m ρ c 4).trans (RegVal.comb3 (V6 m ρ) c)
  refine ⟨Lc, ec.trans ?_⟩
  have y1 : (V6 m ρ c main_v70 : S50000x64.Idx → EReal)
      = Glue.aggOf (F := Ideal) (Cert.Spec.proj (H1 m c) (a5 m c)) (SRC m c) (DST m c) (NORM m c) := by
    refine eagg.trans ?_; rw [ep, La.v1, La.v3, La.v28]
  have y2 : (V6 m ρ c main_v52 : S50000x64.Idx → EReal) = Cert.Spec.proj (H1 m c) (a5 m c) := ep'.trans ep
  have y3 : (V6 m ρ c main_v30 : S50000x1.Idx → EReal) = D2 m c := Lb.v30
  have y4 : (V6 m ρ c main_v71 : S1x64.Idx → EReal) = Glue.rowOf (a6 m c) := by
    refine erow.trans ?_; rw [La.g6]
  rw [y1, y2, y3, y4]; rfl

end Cert.KernelIdeal.Chain

end
-- ==== Proof.Proj4.lean ====
/-
  This region of the kernel program multiplies its feature array by its weight array, ten blocks of 5000 rows at a time.

  * At a point of the grid the body holds one block x of 5000 rows of the features and the whole 64 × 64 weight w,
    narrows both (a change of float format, the identity on extended reals), and stores their product into a zero
    accumulator: entry (p, q) of the stored block is the sum over r of x(p, r) · w(r, q).
  * Point t's feature block is rows t·5000 … t·5000 + 4999 of the feature array, and its output block is the same rows
    of the output array; the weight block is the whole weight array at every point. So what point t writes back is
    block t of the product of the two arrays.
  * Row r of the output lies in the block of point r / 5000, so the ten blocks cover the output array, which therefore
    ends holding the product.
-/
import proofs.«411616_j90108413870647_1_alg».proof.Proof.Gen.KernelIdeal.Frame
import proofs.«411616_j90108413870647_1_alg».proof.Proof.Spec
import Idealize.ShloMosaic.Lib.ValueIdx
import Idealize.ShloMosaic.Lib.Pipeline.Value
import Idealize.ShloMosaic.PureOps.Ideal.Laws

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat)

/-! ## The block product's operand indices, axis by axis -/

private theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's payload at row p, column q of the block: the sum over r of x(p, r) · w(r, q). -/
private theorem pay_apply (x : Vec Ideal S5000x64 .f32) (w : Vec Ideal S64x64 .f32) (p : Fin 5000) (q : Fin 64) :
    (k4_pay1 (F := Ideal) x w (ix2 p q) : EReal)
      = ∑ r : Fin 64, (x (ix2 p r) : EReal) * (w (ix2 r q) : EReal) := by
  unfold k4_pay1
  rw [shapeCast_self]
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [truncf_apply, truncf_apply, el, er]

variable (V : (c : Dev nD) → (b : Ref sig .tc) → Buf (Elt Ideal) ((c : Thread nD τ).loc b)) (c : Dev nD)

/-- A block's origin is the zero offset. -/
private theorem origin_zero : (![0, 0] : Fin 2 → Nat) = fun _ => 0 := funext fun a => by fin_cases a <;> rfl

/-- The product of a block of rows: when the block x holds rows b·5000 … b·5000+4999 of X and the block w is all of W,
    the payload at (p, q) is the product of X and W at (b·5000 + p, q). -/
private theorem pay_rows (X : S50000x64.Idx → EReal) (W : S64x64.Idx → EReal)
    (x : Vec Ideal S5000x64 .f32) (w : Vec Ideal S64x64 .f32) (b : Nat) (hb : b * 5000 + 5000 ≤ 50000)
    (hx : ∀ (p : Fin 5000) (r : Fin 64), (x (ix2 p r) : EReal) = X (ix2 (⟨b * 5000 + p.val, by omega⟩ : Fin 50000) r))
    (hw : ∀ (r q : Fin 64), (w (ix2 r q) : EReal) = W (ix2 r q))
    (p : Fin 5000) (q : Fin 64) :
    (k4_pay1 (F := Ideal) x w (ix2 p q) : EReal)
      = Cert.Spec.proj X W (ix2 (⟨b * 5000 + p.val, by omega⟩ : Fin 50000) q) := by
  rw [pay_apply]
  unfold Cert.Spec.proj
  exact Finset.sum_congr rfl fun r _ => by rw [hx, hw]

/-- The printed index maps over the grid: the feature window and the output window move together, one block of rows
    per point; the weight window stays on its one block. -/
private theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 10 :=
  (by decide +kernel : ∀ t : Fin grid4.N, _)

/-- What point t writes back is block t of the product of the two input arrays. -/
private theorem flushed_eq (t : Fin cfg4.N) :
    (dat4 (F := Ideal) V c).flushed 2 t = ((cfg4.win 2).blk t).view.read (Elt Ideal)
      (Cert.Spec.proj (V c main_v72 : S50000x64.Idx → EReal) (V c main_arg7 : S64x64.Idx → EReal)) := by
  show (cfg4.win 2).cut (grid4.coords t) ((dat4 V c).after 2 t) = _
  rw [after4_2]
  unfold out4_2
  rw [View.canon_unit_zero origin_zero]
  simp only [View.ld_unit_zero (S := S5000x64) origin_zero, View.ld_unit_zero (S := S64x64) origin_zero]
  obtain ⟨e0, e1, e2, e3, e4, e5, e6⟩ := index_facts t
  funext j
  obtain ⟨p, q, rfl⟩ : ∃ (p : Fin 5000) (q : Fin 64), j = ix2 p q := ⟨j 0, j 1, eq_ix2 j⟩
  show (k4_pay1 (F := Ideal) (iblk4 V c 0 t) (iblk4 V c 1 t) (ix2 p q) : EReal)
    = Cert.Spec.proj (V c main_v72 : S50000x64.Idx → EReal) (V c main_arg7 : S64x64.Idx → EReal) (((cfg4.win 2).blk t).view.emb (ix2 p q))
  refine (pay_rows (V c main_v72) (V c main_arg7) (iblk4 V c 0 t) (iblk4 V c 1 t) t.val (by omega) ?_ ?_ p q).trans ?_
  · intro p r
    show V c main_v72 (((cfg4.win 0).blk t).view.emb (ix2 p r)) = V c main_v72 (ix2 (⟨t.val * 5000 + p.val, by omega⟩ : Fin 50000) r)
    refine congrArg (V c main_v72) (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * r.val = r.val; omega
  · intro r q
    show V c main_arg7 (((cfg4.win 1).blk t).view.emb (ix2 r q)) = V c main_arg7 (ix2 r q)
    refine congrArg (V c main_arg7) (funext fun a => Fin.ext ?_)
    match a with
    | ⟨0, _⟩ => show win4_1.index t (0 : Fin 2) * 64 + 1 * r.val = r.val; omega
    | ⟨1, _⟩ => show win4_1.index t (1 : Fin 2) * 64 + 1 * q.val = q.val; omega
  · refine congrArg (Cert.Spec.proj (V c main_v72 : S50000x64.Idx → EReal) (V c main_arg7 : S64x64.Idx → EReal)) (funext fun a => Fin.ext ?_)
    match a with
    | ⟨0, _⟩ => show t.val * 5000 + p.val = win4_2.index t (0 : Fin 2) * 5000 + 1 * p.val; omega
    | ⟨1, _⟩ => show q.val = win4_2.index t (1 : Fin 2) * 64 + 1 * q.val; omega

/-- An index of the array is in point t's block iff each coordinate is in the block's range on its axis. -/
private theorem mem_block (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v73).slice (win4_2.rect t)).set ↔ _
  rw [View.set_slice_whole, Rect.mem_set_unit]
  exact Iff.rfl

/-- Every index of the output array is in some point's block: row r is in the block of point r / 5000. -/
private theorem covered (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  have hlt : (i 0).val / 5000 < cfg4.N := (by omega : (i 0).val / 5000 < 10).trans_eq hN.symm
  refine ⟨⟨(i 0).val / 5000, hlt⟩, flush4_2 _, ?_⟩
  obtain ⟨e0, e1, e2, e3, e4, e5, e6⟩ := index_facts ⟨(i 0).val / 5000, hlt⟩
  have e4' : win4_2.index ⟨(i 0).val / 5000, hlt⟩ (0 : Fin 2) = (i 0).val / 5000 := e4
  rw [mem_block]
  intro a
  match a with
  | ⟨0, _⟩ => show win4_2.index ⟨(i 0).val / 5000, hlt⟩ (0 : Fin 2) * 5000 ≤ (i 0).val ∧ (i 0).val < win4_2.index ⟨(i 0).val / 5000, hlt⟩ (0 : Fin 2) * 5000 + 5000; omega
  | ⟨1, _⟩ => show win4_2.index ⟨(i 0).val / 5000, hlt⟩ (1 : Fin 2) * 64 ≤ (i 1).val ∧ (i 1).val < win4_2.index ⟨(i 0).val / 5000, hlt⟩ (1 : Fin 2) * 64 + 64; omega

/-- After its ten points the region's output array is the product of its two input arrays. -/
theorem proj4 : ((dat4 (F := Ideal) V c).arrAt 2 cfg4.N : S50000x64.Idx → EReal)
    = Cert.Spec.proj (V c main_v72 : S50000x64.Idx → EReal) (V c main_arg7 : S64x64.Idx → EReal) :=
  (dat4 (F := Ideal) V c).arrAt_eq_of_cover 2
    (Cert.Spec.proj (V c main_v72 : S50000x64.Idx → EReal) (V c main_arg7 : S64x64.Idx → EReal))
    (fun t _ => flushed_eq V c t) covered

end Cert.KernelIdeal.RegVal

end
-- ==== Proof.Comb5.lean ====
import proofs.«411616_j90108413870647_1_alg».proof.Proof.Gen.KernelIdeal.Frame
import proofs.«411616_j90108413870647_1_alg».proof.Proof.Spec
import Idealize.ShloMosaic.Lib.ValueIdx
import Idealize.ShloMosaic.Lib.Pipeline.Value

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat)

/-!
  The combine step of one layer, read off the pipelined region index by index.

  The region walks ten row blocks of 5000 rows. At each block the body forms, entry by entry,
  max(agg + hp · s + b, 0): the aggregate block and the self-loop block are taken as they are, the scale column is
  repeated along the 64 features, the bias row is repeated along the 5000 rows. Three of the inputs and the output
  move together through the row blocks; the bias has one block, the same at every point. So what each point writes back
  is its block of ONE function of the four whole arrays, and since the ten blocks tile the 50000 rows the output array
  ends holding that function everywhere.
-/

/-- The body's value at row p, column q of a block: the aggregate plus the self-loop term scaled by the row's
    factor plus the column's bias, clipped below at zero. -/
private theorem combine_block_apply (x0 x1 : Vec Ideal S5000x64 .f32) (x2 : Vec Ideal S5000x1 .f32) (x3 : Vec Ideal S1x64 .f32)
    (p : Fin 5000) (q : Fin 64) :
    k5_pay1 (F := Ideal) x0 x1 x2 x3 (ix2 p q)
      = max (x0 (ix2 p q) + x1 (ix2 p q) * x2 (ix2 p (0 : Fin 1)) + x3 (ix2 (0 : Fin 1) q))
          (Ideal.ofBits .f32 0x00000000#32) := by
  unfold k5_pay1
  simp only [shapeCast_self]
  rw [maximumf_apply, addf_apply, addf_apply, mulf_apply, broadcast_apply]
  rw [broadcastTo_apply x2 broadcasts_S5000x1_S5000x64 (ix2 p q) (ix2 p (0 : Fin 1))
        (fun a => by match a with | ⟨0, _⟩ => rfl | ⟨1, _⟩ => rfl),
      broadcastTo_apply x3 broadcasts_S1x64_S5000x64 (ix2 p q) (ix2 (0 : Fin 1) q)
        (fun a => by match a with | ⟨0, _⟩ => rfl | ⟨1, _⟩ => rfl)]
  rfl

/-- A block entry whose four inputs are the arrays' entries at an index i is the combine function at i. -/
private theorem combine_block_eq_comb (agg hp : S50000x64.Idx → EReal) (s : S50000x1.Idx → EReal) (b : S1x64.Idx → EReal)
    (x0 x1 : Vec Ideal S5000x64 .f32) (x2 : Vec Ideal S5000x1 .f32) (x3 : Vec Ideal S1x64 .f32)
    (j : S5000x64.Idx) (i : S50000x64.Idx)
    (h0 : x0 j = agg i) (h1 : x1 j = hp i)
    (h2 : x2 (ix2 (n0 := 5000) (j 0) (0 : Fin 1)) = s (ix2 (n0 := 50000) (i 0) (0 : Fin 1)))
    (h3 : x3 (ix2 (n1 := 64) (0 : Fin 1) (j 1)) = b (ix2 (n1 := 64) (0 : Fin 1) (i 1))) :
    k5_pay1 (F := Ideal) x0 x1 x2 x3 j = Cert.Spec.comb agg hp s b i := by
  obtain ⟨p, q, rfl⟩ : ∃ (p : Fin 5000) (q : Fin 64), j = ix2 p q := ⟨j 0, j 1, eq_ix2 j⟩
  have h2' : x2 (ix2 p (0 : Fin 1)) = s (ix2 (n0 := 50000) (i 0) (0 : Fin 1)) := h2
  have h3' : x3 (ix2 (0 : Fin 1) q) = b (ix2 (n1 := 64) (0 : Fin 1) (i 1)) := h3
  rw [combine_block_apply, h0, h1, h2', h3']
  rfl

/-- A block's rectangle starts at offset zero on both axes. -/
private theorem block_offsets_zero : (![0, 0] : Fin 2 → Nat) = fun _ => 0 :=
  funext fun a => by match a with | ⟨0, _⟩ => rfl | ⟨1, _⟩ => rfl

/-- Where each window's block sits at grid point t: the three row-blocked inputs move with the output's row block,
    the bias keeps its one block, and the output's row block is the point itself, below ten. -/
private theorem block_indices : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = win5_4.index t (0 : Fin 2)
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

variable (V : (c : Dev nD) → (b : Ref sig .tc) → Buf (Elt Ideal) ((c : Thread nD τ).loc b)) (c : Dev nD)

/-- What grid point t writes back is block t of the combine function of the four input arrays. -/
private theorem flushed_eq_comb (t : Fin cfg5.N) :
    (dat5 (F := Ideal) V c).flushed 4 t = ((cfg5.win 4).blk t).view.read (Elt Ideal)
      (Cert.Spec.comb (V c main_v91 : S50000x64.Idx → EReal) (V c main_v73 : S50000x64.Idx → EReal)
        (V c main_v30 : S50000x1.Idx → EReal) (V c main_v92 : S1x64.Idx → EReal)) := by
  show (cfg5.win 4).cut (grid5.coords t) ((dat5 V c).after 4 t) = _
  rw [after5_4]
  unfold out5_4
  rw [View.canon_unit_zero block_offsets_zero]
  simp only [View.ld_unit_zero (S := S5000x64) block_offsets_zero, View.ld_unit_zero (S := S5000x1) block_offsets_zero,
    View.ld_unit_zero (S := S1x64) block_offsets_zero]
  obtain ⟨e00, e01, e10, e11, e20, e21, e30, e31, e40, e41⟩ := block_indices t
  funext j
  show k5_pay1 (F := Ideal) (iblk5 V c 0 t) (iblk5 V c 1 t) (iblk5 V c 2 t) (iblk5 V c 3 t) j
    = Cert.Spec.comb (V c main_v91 : S50000x64.Idx → EReal) (V c main_v73 : S50000x64.Idx → EReal)
        (V c main_v30 : S50000x1.Idx → EReal) (V c main_v92 : S1x64.Idx → EReal) (((cfg5.win 4).blk t).view.emb j)
  refine combine_block_eq_comb _ _ _ _ _ _ _ _ j _ ?_ ?_ ?_ ?_
  · show V c main_v91 (((cfg5.win 0).blk t).view.emb j) = V c main_v91 (((cfg5.win 4).blk t).view.emb j)
    refine congrArg _ (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  · show V c main_v73 (((cfg5.win 1).blk t).view.emb j) = V c main_v73 (((cfg5.win 4).blk t).view.emb j)
    refine congrArg _ (funext fun a => Fin.ext ?_)
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 64 + 1 * (j 1).val = win5_4.index t (1 : Fin 2) * 64 + 1 * (j 1).val; omega
  · show V c main_v30 (((cfg5.win 2).blk t).view.emb (ix2 (n0 := 5000) (j 0) (0 : Fin 1)))
      = V c main_v30 (ix2 (n0 := 50000) ((((cfg5.win 4).blk t).view.emb j) 0) (0 : Fin 1))
    refine congrArg _ (funext fun a => Fin.ext ?_)
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  · show V c main_v92 (((cfg5.win 3).blk t).view.emb (ix2 (n1 := 64) (0 : Fin 1) (j 1)))
      = V c main_v92 (ix2 (n1 := 64) (0 : Fin 1) ((((cfg5.win 4).blk t).view.emb j) 1))
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega

/-- An index of the output array is in grid point t's block exactly when each coordinate is in the block's range on
    its axis. -/
private theorem mem_block_iff (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v93).slice (win5_4.rect t)).set ↔ _
  rw [View.set_slice_whole, Rect.mem_set_unit]
  exact Iff.rfl

/-- The ten row blocks tile the output: row r lies in the block of grid point r / 5000, which is written back. -/
private theorem blocks_cover (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : (i 0).val / 5000 < grid5.N := by rw [N_5]; omega
  obtain ⟨-, -, -, -, -, -, -, -, e40, e41⟩ := block_indices ⟨(i 0).val / 5000, hN⟩
  have e40' : win5_4.index ⟨(i 0).val / 5000, hN⟩ (0 : Fin 2) = (i 0).val / 5000 := e40
  refine ⟨⟨(i 0).val / 5000, hN⟩, flush5_4 _, ?_⟩
  rw [mem_block_iff]
  intro a
  match a with
  | ⟨0, _⟩ =>
    show win5_4.index ⟨(i 0).val / 5000, hN⟩ (0 : Fin 2) * 5000 ≤ (i 0).val
      ∧ (i 0).val < win5_4.index ⟨(i 0).val / 5000, hN⟩ (0 : Fin 2) * 5000 + 5000
    omega
  | ⟨1, _⟩ =>
    show win5_4.index ⟨(i 0).val / 5000, hN⟩ (1 : Fin 2) * 64 ≤ (i 1).val
      ∧ (i 1).val < win5_4.index ⟨(i 0).val / 5000, hN⟩ (1 : Fin 2) * 64 + 64
    omega

/-- After the region's ten grid points the output array is the combine function of the four input arrays as the
    region found them: every block written back is that function's block, and the blocks tile the array. -/
theorem comb5 : ((dat5 (F := Ideal) V c).arrAt 4 cfg5.N : S50000x64.Idx → EReal)
    = Cert.Spec.comb (V c main_v91 : S50000x64.Idx → EReal) (V c main_v73 : S50000x64.Idx → EReal)
        (V c main_v30 : S50000x1.Idx → EReal) (V c main_v92 : S1x64.Idx → EReal) :=
  (dat5 (F := Ideal) V c).arrAt_eq_of_cover 4
    (Cert.Spec.comb (V c main_v91 : S50000x64.Idx → EReal) (V c main_v73 : S50000x64.Idx → EReal)
      (V c main_v30 : S50000x1.Idx → EReal) (V c main_v92 : S1x64.Idx → EReal))
    (fun t _ => flushed_eq_comb V c t) blocks_cover

end Cert.KernelIdeal.RegVal

end
-- ==== Proof.Chain3.lean ====
/-
  The third layer on the kernel side: from the contents at the boundary before it to the contents after it.

  The projection region leaves the matrix product of the previous layer's output and the layer's weight in its output
  array; the host stretch gathers its rows at the edges' sources, scales them by the edge weights and adds them into
  the targets' rows, and lays the bias out as a row; the combine region leaves max(aggregate + product · self-loop
  weight + bias, 0). Every other buffer the later layers read passes through unchanged: a region changes only its
  output array (an input array ends as it was entered), a host stretch only the buffers it writes.
-/
import proofs.«411616_j90108413870647_1_alg».proof.Proof.ChainDefs
import proofs.«411616_j90108413870647_1_alg».proof.Proof.Keep
import proofs.«411616_j90108413870647_1_alg».proof.Proof.Proj4
import proofs.«411616_j90108413870647_1_alg».proof.Proof.Comb5
import Idealize.ShloMosaic.Lib.ValueIdx

noncomputable section

namespace Cert.KernelIdeal.Chain

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 1600000 in
theorem st10
    (h : Live m c (W7 m ρ c) ∧ (W7 m ρ c (Proc.devRef .tc main_v72) : S50000x64.Idx → EReal) = H2 m c) :
    Live m c (W10 m ρ c) ∧ (W10 m ρ c (Proc.devRef .tc main_v93) : S50000x64.Idx → EReal) = H3 m c := by
  obtain ⟨hL, hH⟩ := h
  -- the projection region: its output array is the product; its weight ends as entered; the rest are not its arrays
  have La : Live m c (W8 m ρ c) := hL.congr m c
      (W8_of_ne m ρ c main_v1 (by decide))
      (W8_of_ne m ρ c main_v3 (by decide))
      (W8_of_ne m ρ c main_v28 (by decide))
      (W8_of_ne m ρ c main_v30 (by decide))
      (W8_of_ne m ρ c main_arg2 (by decide))
      (W8_of_ne m ρ c main_arg5 (by decide))
      (W8_of_ne m ρ c main_arg6 (by decide))
      ((W8_arr m ρ c 1).trans (((dat4 (V7 m ρ) c).arrAt_in 1 rfl _).trans (A_eq4 (V7 m ρ) c 1)))
      (W8_of_ne m ρ c main_arg8 (by decide))
      (W8_of_ne m ρ c main_arg9 (by decide))
      (W8_of_ne m ρ c main_arg10 (by decide))
  have xh : (V7 m ρ c main_v72 : S50000x64.Idx → EReal) = H2 m c := hH
  have xw : (V7 m ρ c main_arg7 : S64x64.Idx → EReal) = a7 m c := hL.g7
  have ep : (W8 m ρ c (Proc.devRef .tc main_v73) : S50000x64.Idx → EReal) = Cert.Spec.proj (H2 m c) (a7 m c) :=
    (W8_arr m ρ c 2).trans ((RegVal.proj4 (V7 m ρ) c).trans (by rw [xh, xw]))
  -- the host stretch: the aggregate and the bias row; everything else passes through
  have Lb : Live m c (W9 m ρ c) := La.congr m c
      (Keep.keep5 _ main_v1 (by decide))
      (Keep.keep5 _ main_v3 (by decide))
      (Keep.keep5 _ main_v28 (by decide))
      (Keep.keep5 _ main_v30 (by decide))
      (Keep.keep5 _ main_arg2 (by decide))
      (Keep.keep5 _ main_arg5 (by decide))
      (Keep.keep5 _ main_arg6 (by decide))
      (Keep.keep5 _ main_arg7 (by decide))
      (Keep.keep5 _ main_arg8 (by decide))
      (Keep.keep5 _ main_arg9 (by decide))
      (Keep.keep5 _ main_arg10 (by decide))
  have eagg : (W9 m ρ c (Proc.devRef .tc main_v91) : S50000x64.Idx → EReal)
      = Glue.aggOf (F := Ideal) (W8 m ρ c (Proc.devRef .tc main_v73)) (W8 m ρ c (Proc.devRef .tc main_v1))
          (W8 m ρ c (Proc.devRef .tc main_v3)) (W8 m ρ c (Proc.devRef .tc main_v28)) := by
    dsimp only [W9, hostOps5]; after_results_simp <;> rfl
  have erow : (W9 m ρ c (Proc.devRef .tc main_v92) : S1x64.Idx → EReal)
      = Glue.rowOf (F := Ideal) (W8 m ρ c (Proc.devRef .tc main_arg8)) := by
    dsimp only [W9, hostOps5]; after_results_simp <;> rfl
  have ep' : W9 m ρ c (Proc.devRef .tc main_v73) = W8 m ρ c (Proc.devRef .tc main_v73) := Keep.keep5 _ main_v73 (by decide)
  -- the combine region: its output array; the self-loop weights, an input array, end as entered
  have Lc : Live m c (W10 m ρ c) := Lb.congr m c
      (W10_of_ne m ρ c main_v1 (by decide))
      (W10_of_ne m ρ c main_v3 (by decide))
      (W10_of_ne m ρ c main_v28 (by decide))
      ((W10_arr m ρ c 2).trans (((dat5 (V9 m ρ) c).arrAt_in 2 rfl _).trans (A_eq5 (V9 m ρ) c 2)))
      (W10_of_ne m ρ c main_arg2 (by decide))
      (W10_of_ne m ρ c main_arg5 (by decide))
      (W10_of_ne m ρ c main_arg6 (by decide))
      (W10_of_ne m ρ c main_arg7 (by decide))
      (W10_of_ne m ρ c main_arg8 (by decide))
      (W10_of_ne m ρ c main_arg9 (by decide))
      (W10_of_ne m ρ c main_arg10 (by decide))
  have ec : (W10 m ρ c (Proc.devRef .tc main_v93) : S50000x64.Idx → EReal)
      = Cert.Spec.comb (V9 m ρ c main_v91 : S50000x64.Idx → EReal) (V9 m ρ c main_v73 : S50000x64.Idx → EReal)
          (V9 m ρ c main_v30 : S50000x1.Idx → EReal) (V9 m ρ c main_v92 : S1x64.Idx → EReal) :=
    (W10_arr m ρ c 4).trans (RegVal.comb5 (V9 m ρ) c)
  refine ⟨Lc, ec.trans ?_⟩
  have y1 : (V9 m ρ c main_v91 : S50000x64.Idx → EReal)
      = Glue.aggOf (F := Ideal) (Cert.Spec.proj (H2 m c) (a7 m c)) (SRC m c) (DST m c) (NORM m c) := by
    refine eagg.trans ?_; rw [ep, La.v1, La.v3, La.v28]
  have y2 : (V9 m ρ c main_v73 : S50000x64.Idx → EReal) = Cert.Spec.proj (H2 m c) (a7 m c) := ep'.trans ep
  have y3 : (V9 m ρ c main_v30 : S50000x1.Idx → EReal) = D2 m c := Lb.v30
  have y4 : (V9 m ρ c main_v92 : S1x64.Idx → EReal) = Glue.rowOf (a8 m c) := by
    refine erow.trans ?_; rw [La.g8]
  rw [y1, y2, y3, y4]; rfl

end Cert.KernelIdeal.Chain

end
-- ==== Proof.Pool6.lean ====
import proofs.«411616_j90108413870647_1_alg».proof.Proof.Gen.KernelIdeal.Frame
import proofs.«411616_j90108413870647_1_alg».proof.Proof.Spec
import Idealize.ShloMosaic.Lib.ValueIdx
import Idealize.ShloMosaic.Lib.Pipeline.Value
import Idealize.ShloMosaic.Lib.Tactic
import Idealize.ShloMosaic.PureOps.Ideal.Laws
import Mathlib.Algebra.BigOperators.Fin
import Mathlib.Algebra.BigOperators.Group.Finset.Basic

/-!
  The pooling region: a 64 × 64 accumulator summed over ten row blocks of 5000 nodes.

  At the first grid point the body zeroes the accumulator; at every point it adds the product ohᵀ · h of the point's
  5000-row blocks of the membership matrix `oh` and of the features `h`. Over the extended reals entry (g, j) after
  point n is therefore the sum of oh(r, g) · h(r, j) over the rows r below 5000 · (n + 1); after the tenth point that is
  the segment sum over all 50000 nodes. The accumulator's block is the whole output array and is written back once,
  after the last point. Only 0 + x = x and the splitting of a sum over an initial range are used of the arithmetic.
-/

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat)

namespace Pool

/-! ## What each control case leaves in the accumulator -/

section Pieces

variable {F : FTy → Type} [FloatOps F]

/-- The offsets of an access to a whole buffer are zero on both axes. -/
theorem zero_offsets : (![0, 0] : Fin 2 → Nat) = fun _ => 0 := funext fun a => by fin_cases a <;> rfl

/-- At a later point the body leaves, in the accumulator holding `acc`, the update of `acc` by the two input
    blocks: the payload of its one store, which covers the buffer and whose loads read the whole buffers. -/
theorem later_point (c : Dev nD) (i : grid6.Coords) (a1 : Memref sig .tc .vmem S5000x64 .bf16) (h1 : a1.IsWhole)
    (a2 : Memref sig .tc .vmem S5000x64 .f32) (h2 : a2.IsWhole) (a3 : Memref sig .tc .vmem S64x64 .f32) (h3 : a3.IsWhole)
    (hc : ¬cond6_0 i) (x0 : Vec F S5000x64 .bf16) (x1 : Vec F S5000x64 .f32) (acc : Vec F S64x64 .f32) :
    out6_B_2 c i a1 h1 a2 h2 a3 h3 hc x0 x1 acc = k6_pay2 x0 x1 acc := by
  unfold out6_B_2
  rw [View.read_writes_eq_canon _ _ _ (cover6_B_2 c i a1 h1 a2 h2 a3 h3 hc x0 x1 acc)]
  unfold kernelRun6_B
  dsimp only
  sl_unfold_words
  rw [View.canon_unit_zero zero_offsets]
  simp only [View.readAt_eq_ld, h1.read_unread, h2.read_unread, h3.read_unread,
    View.ld_unit_zero (S := S5000x64) zero_offsets, View.ld_unit_zero (S := S64x64) zero_offsets]

/-- At the first point the body stores the zero block, reads it back, and leaves the update of the zero block: the
    later store covers the earlier one, and the load between the two reads what the earlier one wrote. -/
theorem first_point (c : Dev nD) (i : grid6.Coords) (a1 : Memref sig .tc .vmem S5000x64 .bf16) (h1 : a1.IsWhole)
    (a2 : Memref sig .tc .vmem S5000x64 .f32) (h2 : a2.IsWhole) (a3 : Memref sig .tc .vmem S64x64 .f32) (h3 : a3.IsWhole)
    (hc : cond6_0 i) (x0 : Vec F S5000x64 .bf16) (x1 : Vec F S5000x64 .f32) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x64) zero_offsets]
  simp only [View.readAt_eq_ld, h1.read_unread, h2.read_unread, View.ld_unit_zero (S := S5000x64) zero_offsets,
    View.readCov_unit_zero (S := S64x64) _ zero_offsets]

end Pieces

/-! ## The update read at an entry, over the extended reals -/

/-- The block product's dimension numbers: axis 0 of both operands is contracted, and the result's two axes are the
    operands' axes 1. -/
abbrev blockDot : DotDims S5000x64 S5000x64 S64x64 := dot_S5000x64_S5000x64_S64x64_0_0_1_1_n_n

theorem lhs_axis0 (i : S64x64.Idx) (q : blockDot.contr.Idx) : (blockDot.lhsIdx i q 0).val = (q ⟨0, by decide⟩).val :=
  blockDot.lhsIdx_val_of_single rfl i q
theorem lhs_axis1 (i : S64x64.Idx) (q : blockDot.contr.Idx) : (blockDot.lhsIdx i q 1).val = (i 0).val := by
  unfold DotDims.lhsIdx
  rw [dif_neg (show ¬(1 : Fin S5000x64.rank) ∈ blockDot.lhsBatch by decide),
    dif_pos (show (1 : Fin S5000x64.rank) ∈ blockDot.lhsNonContracting by decide)]
  rfl
theorem rhs_axis0 (i : S64x64.Idx) (q : blockDot.contr.Idx) : (blockDot.rhsIdx i q 0).val = (q ⟨0, by decide⟩).val :=
  blockDot.rhsIdx_val_of_single rfl i q
theorem rhs_axis1 (i : S64x64.Idx) (q : blockDot.contr.Idx) : (blockDot.rhsIdx i q 1).val = (i 1).val := by
  unfold DotDims.rhsIdx
  rw [dif_neg (show ¬(1 : Fin S5000x64.rank) ∈ blockDot.rhsBatch by decide),
    dif_pos (show (1 : Fin S5000x64.rank) ∈ blockDot.rhsNonContracting by decide)]
  rfl

/-- The block the first point stores is zero at every entry. -/
theorem reset_apply (i : S64x64.Idx) : (k6_pay1 (F := Ideal) : S64x64.Idx → EReal) i = 0 := by
  unfold k6_pay1
  exact Ideal.ofBits_zero_f32

/-- The update at entry (g, j): the accumulator there plus the sum, over the block's rows q, of oh(q, g) · h(q, j). The
    change of float format on the way into the product is the identity on extended reals. -/
theorem update_apply (oh : Vec Ideal S5000x64 .bf16) (h : Vec Ideal S5000x64 .f32) (acc : Vec Ideal S64x64 .f32) (g j : Fin 64) :
    (k6_pay2 (F := Ideal) oh h acc : S64x64.Idx → EReal) (ix2 g j)
      = (acc : S64x64.Idx → EReal) (ix2 g j)
        + ∑ q : Fin 5000, (oh : S5000x64.Idx → EReal) (ix2 q g) * (h : S5000x64.Idx → EReal) (ix2 q j) := by
  unfold k6_pay2
  simp only [shapeCast_self]
  refine (addf_apply _ _ _).trans ?_
  refine congrArg ((acc : S64x64.Idx → EReal) (ix2 g j) + ·) ?_
  simp only [matmul]
  rw [Ideal.matmul_constant_zero_apply, ← Equiv.sum_comp (contrEquiv1 blockDot 5000 rfl rfl).symm]
  refine Finset.sum_congr rfl fun k _ => ?_
  have hk := contrEquiv1_symm_val blockDot 5000 rfl rfl k
  have el : blockDot.lhsIdx (ix2 g j) ((contrEquiv1 blockDot 5000 rfl rfl).symm k) = ix2 k g := funext fun a => Fin.ext (by
    match a with
    | ⟨0, _⟩ => exact (lhs_axis0 _ _).trans hk
    | ⟨1, _⟩ => exact lhs_axis1 _ _)
  have er : blockDot.rhsIdx (ix2 g j) ((contrEquiv1 blockDot 5000 rfl rfl).symm k) = ix2 k j := funext fun a => Fin.ext (by
    match a with
    | ⟨0, _⟩ => exact (rhs_axis0 _ _).trans hk
    | ⟨1, _⟩ => exact rhs_axis1 _ _)
  rw [el, er]
  rfl

/-! ## The row blocks and the running sum -/

variable (V : (c : Dev nD) → (b : Ref sig .tc) → Buf (Elt Ideal) ((c : Thread nD τ).loc b)) (c : Dev nD)

/-- The membership matrix and the features as the region finds them, and their row blocks at a point. -/
abbrev ohArr : Vec Ideal S50000x64 .bf16 := V c main_v100
abbrev hArr : Vec Ideal S50000x64 .f32 := V c main_v93
abbrev ohBlk (t : Fin cfg6.N) : Vec Ideal S5000x64 .bf16 := iblk6 V c 0 t
abbrev hBlk (t : Fin cfg6.N) : Vec Ideal S5000x64 .f32 := iblk6 V c 1 t

/-- The block indices over the grid: both inputs' row block is the point's number, and the output's block never moves. -/
theorem block_indices : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

/-- Row q of the membership block at point t is row 5000 · t + q of the matrix. -/
theorem ohBlk_apply (t : Fin cfg6.N) (q : Fin 5000) (g : Fin 64) (r : Fin 50000) (hr : r.val = 5000 * t.val + q.val) :
    (ohBlk V c t : S5000x64.Idx → EReal) (ix2 q g) = (ohArr V c : S50000x64.Idx → EReal) (ix2 r g) := by
  show V c main_v100 (((cfg6.win 0).blk t).view.emb (ix2 q g)) = V c main_v100 (ix2 r g)
  refine congrArg _ ?_
  funext a; apply Fin.ext
  obtain ⟨e0, e1, -⟩ := block_indices t
  match a with
  | ⟨0, _⟩ => show win6_0.index t (0 : Fin 2) * 5000 + 1 * q.val = r.val; omega
  | ⟨1, _⟩ => show win6_0.index t (1 : Fin 2) * 64 + 1 * g.val = g.val; omega

/-- Row q of the feature block at point t is row 5000 · t + q of the features. -/
theorem hBlk_apply (t : Fin cfg6.N) (q : Fin 5000) (j : Fin 64) (r : Fin 50000) (hr : r.val = 5000 * t.val + q.val) :
    (hBlk V c t : S5000x64.Idx → EReal) (ix2 q j) = (hArr V c : S50000x64.Idx → EReal) (ix2 r j) := by
  show V c main_v93 (((cfg6.win 1).blk t).view.emb (ix2 q j)) = V c main_v93 (ix2 r j)
  refine congrArg _ ?_
  funext a; apply Fin.ext
  obtain ⟨-, -, e0, e1, -⟩ := block_indices t
  match a with
  | ⟨0, _⟩ => show win6_1.index t (0 : Fin 2) * 5000 + 1 * q.val = r.val; omega
  | ⟨1, _⟩ => show win6_1.index t (1 : Fin 2) * 64 + 1 * j.val = j.val; omega

/-- Row r's term of entry (g, j) of the segment sum, as a function of every natural number: zero past the last row. -/
def term (g j : Fin 64) (r : ℕ) : EReal :=
  if h : r < 50000 then (ohArr V c : S50000x64.Idx → EReal) (ix2 ⟨r, h⟩ g) * (hArr V c : S50000x64.Idx → EReal) (ix2 ⟨r, h⟩ j) else 0

/-- The block product at point t, entry (g, j), is the sum of the terms of rows 5000 · t, …, 5000 · t + 4999. -/
theorem block_product (t : Fin cfg6.N) (g j : Fin 64) :
    ∑ q : Fin 5000, (ohBlk V c t : S5000x64.Idx → EReal) (ix2 q g) * (hBlk V c t : S5000x64.Idx → EReal) (ix2 q j)
      = ∑ q ∈ Finset.range 5000, term V c g j (5000 * t.val + q) := by
  rw [Finset.sum_range]
  refine Finset.sum_congr rfl fun q _ => ?_
  have hN : t.val < 10 := lt_of_lt_of_eq t.isLt (show cfg6.N = 10 from N_6)
  have hr : 5000 * t.val + q.val < 50000 := by have := q.isLt; omega
  unfold term
  rw [dif_pos hr, ohBlk_apply V c t q g ⟨_, hr⟩ rfl, hBlk_apply V c t q j ⟨_, hr⟩ rfl]

/-- All 50000 terms together are the segment sum's entry. -/
theorem all_terms (g j : Fin 64) :
    ∑ r ∈ Finset.range 50000, term V c g j r
      = Cert.Spec.pool (ohArr V c : S50000x64.Idx → EReal) (hArr V c : S50000x64.Idx → EReal) (ix2 g j) := by
  unfold Cert.Spec.pool
  rw [Finset.sum_range]
  refine Finset.sum_congr rfl fun r _ => ?_
  unfold term
  rw [dif_pos r.isLt]

/-- THE INVARIANT. After point n the accumulator holds, at (g, j), the terms of the rows below 5000 · (n + 1): by
    induction on the point, the first point updating the zero block and every later one what the point before left. -/
theorem accumulator_apply : ∀ (n : ℕ) (hn : n < cfg6.N) (g j : Fin 64),
    (outsAt6 V c n hn : S64x64.Idx → EReal) (ix2 g j) = ∑ r ∈ Finset.range (5000 * (n + 1)), term V c g j r
  | 0, hn, g, j => by
    rw [outsAt6_A V c ⟨0, hn⟩ (Nat.zero_mod 10)]
    refine (congrFun (first_point (F := Ideal) c (grid6.coords ⟨0, hn⟩) (ms6_0 ⟨0, hn⟩) (hs6_0 ⟨0, hn⟩) (ms6_1 ⟨0, hn⟩)
      (hs6_1 ⟨0, hn⟩) (ms6_2 ⟨0, hn⟩) (hs6_2 ⟨0, hn⟩) ((hcond6_0 ⟨0, hn⟩).mpr (Nat.zero_mod 10)) (ohBlk V c ⟨0, hn⟩)
      (hBlk V c ⟨0, hn⟩)) (ix2 g j)).trans ?_
    rw [update_apply, reset_apply, zero_add, block_product V c ⟨0, hn⟩ g j]
    refine Finset.sum_congr rfl fun q _ => ?_
    exact congrArg (term V c g j) (by dsimp only; omega)
  | n + 1, hn, g, j => by
    have hN : cfg6.N = 10 := N_6
    have hB : ¬(⟨n + 1, hn⟩ : Fin cfg6.N).val % 10 = 0 := by dsimp only; omega
    rw [outsAt6_B V c ⟨n + 1, hn⟩ hB]
    dsimp only
    refine (congrFun (later_point (F := Ideal) c (grid6.coords ⟨n + 1, hn⟩) (ms6_0 ⟨n + 1, hn⟩) (hs6_0 ⟨n + 1, hn⟩)
      (ms6_1 ⟨n + 1, hn⟩) (hs6_1 ⟨n + 1, hn⟩) (ms6_2 ⟨n + 1, hn⟩) (hs6_2 ⟨n + 1, hn⟩)
      (fun h => hB ((hcond6_0 ⟨n + 1, hn⟩).mp h)) (ohBlk V c ⟨n + 1, hn⟩) (hBlk V c ⟨n + 1, hn⟩)
      (outsAt6 V c n (Nat.lt_of_succ_lt hn))) (ix2 g j)).trans ?_
    rw [update_apply, accumulator_apply n (Nat.lt_of_succ_lt hn) g j, block_product V c ⟨n + 1, hn⟩ g j,
      show 5000 * (n + 1 + 1) = 5000 * (n + 1) + 5000 from by omega, Finset.sum_range_add]

/-! ## From the accumulator after the last point to the output array -/

/-- An index of the output array is in a point's block iff each coordinate is in the block's range on its axis. -/
theorem mem_block (t : Fin cfg6.N) (i : S64x64.Idx) :
    i ∈ ((cfg6.win 2).blk t).view.set
      ↔ ∀ a : Fin 2, win6_2.index t a * S64x64.size a ≤ (i a).val ∧ (i a).val < win6_2.index t a * S64x64.size a + S64x64.size a := by
  show i ∈ ((View.whole main_v105).slice (win6_2.rect t)).set ↔ _
  rw [View.set_slice_whole, Rect.mem_set_unit]
  exact Iff.rfl

/-- The block written back after the last point is the whole array. -/
theorem covered (i : S64x64.Idx) : ∃ t : Fin cfg6.N, (cfg6.win 2).flush t = true ∧ i ∈ ((cfg6.win 2).blk t).view.set := by
  refine ⟨t6_9, (flush6_2 t6_9).mpr rfl, ?_⟩
  rw [mem_block]
  obtain ⟨-, -, -, -, e0, e1⟩ := block_indices t6_9
  intro a
  match a with
  | ⟨0, _⟩ =>
    show win6_2.index t6_9 (0 : Fin 2) * 64 ≤ (i 0).val ∧ (i 0).val < win6_2.index t6_9 (0 : Fin 2) * 64 + 64
    have := idx2_lt0 i; omega
  | ⟨1, _⟩ =>
    show win6_2.index t6_9 (1 : Fin 2) * 64 ≤ (i 1).val ∧ (i 1).val < win6_2.index t6_9 (1 : Fin 2) * 64 + 64
    have := idx2_lt1 i; omega

/-- The write-back at a point writes, entry by entry, what the accumulator holds after that point: the output's block is
    the whole array at zero offsets, so block entry (g, j) is array entry (g, j). -/
theorem written_back_of (G : S64x64.Idx → EReal) (t : Fin cfg6.N)
    (hG : ∀ g j : Fin 64, (outsAt6 V c t.val t.isLt : S64x64.Idx → EReal) (ix2 g j) = G (ix2 g j)) :
    (dat6 V c).flushed 2 t = ((cfg6.win 2).blk t).view.read (Elt Ideal) G := by
  obtain ⟨-, -, -, -, e0, e1⟩ := block_indices t
  funext y
  refine (congrFun (after6_2 V c t) ((cfg6.win 2).xinj (cfg6.grid.coords t) y)).trans ?_
  obtain ⟨g, j, rfl⟩ : ∃ (g j : Fin 64), y = ix2 g j := ⟨y 0, y 1, eq_ix2 y⟩
  have hin : (cfg6.win 2).xinj (cfg6.grid.coords t) (ix2 g j) = (ix2 g j : S64x64.Idx) := by
    funext a; apply Fin.ext
    match a with
    | ⟨0, _⟩ => rfl
    | ⟨1, _⟩ => rfl
  have hemb : ((cfg6.win 2).blk t).view.emb (ix2 g j) = (ix2 g j : S64x64.Idx) := by
    funext a; apply Fin.ext
    match a with
    | ⟨0, _⟩ => show win6_2.index t (0 : Fin 2) * 64 + 1 * g.val = g.val; omega
    | ⟨1, _⟩ => show win6_2.index t (1 : Fin 2) * 64 + 1 * j.val = j.val; omega
  show (outsAt6 V c t.val t.isLt : S64x64.Idx → EReal) ((cfg6.win 2).xinj (cfg6.grid.coords t) (ix2 g j))
    = G (((cfg6.win 2).blk t).view.emb (ix2 g j))
  rw [hin, hemb]
  exact hG g j

/-- The one write-back, after the last point, writes the segment sum: the accumulator then holds all 50000 rows' terms. -/
theorem written_back (t : Fin cfg6.N) (hf : (cfg6.win 2).flush t = true) :
    (dat6 V c).flushed 2 t = ((cfg6.win 2).blk t).view.read (Elt Ideal)
      (Cert.Spec.pool (ohArr V c : S50000x64.Idx → EReal) (hArr V c : S50000x64.Idx → EReal) : S64x64.Idx → EReal) :=
  written_back_of V c _ t fun g j => by
    have hN : cfg6.N = 10 := N_6
    have h9 : t.val = 9 := by have := (flush6_2 t).mp hf; have := t.isLt; omega
    rw [accumulator_apply V c t.val t.isLt g j, show 5000 * (t.val + 1) = 50000 from by omega]
    exact all_terms V c g j

end Pool

variable (V : (c : Dev nD) → (b : Ref sig .tc) → Buf (Elt Ideal) ((c : Thread nD τ).loc b)) (c : Dev nD)

theorem pool6 : ((dat6 (F := Ideal) V c).arrAt 2 cfg6.N : S64x64.Idx → EReal)
    = Cert.Spec.pool (V c main_v100 : S50000x64.Idx → EReal) (V c main_v93 : S50000x64.Idx → EReal) :=
  (dat6 V c).arrAt_eq_of_cover 2
    (Cert.Spec.pool (Pool.ohArr V c : S50000x64.Idx → EReal) (Pool.hArr V c : S50000x64.Idx → EReal))
    (Pool.written_back V c) Pool.covered

end Cert.KernelIdeal.RegVal

end
-- ==== Proof.ChainFin.lean ====
/-
  The end of the kernel program: from the contents after the third layer to the result.

  The host stretch builds the membership matrix of the segment ids and counts each segment's nodes; the pooling region
  leaves the product of the membership matrix's transpose with the third layer's output, each segment's sum; the last
  host stretch divides by the counts, applies the last linear map and adds its bias.
-/
import proofs.«411616_j90108413870647_1_alg».proof.Proof.ChainDefs
import proofs.«411616_j90108413870647_1_alg».proof.Proof.Keep
import proofs.«411616_j90108413870647_1_alg».proof.Proof.Pool6
import Idealize.ShloMosaic.Lib.ValueIdx

noncomputable section

namespace Cert.KernelIdeal.Chain

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 1600000 in
theorem fin (h : Live m c (W10 m ρ c) ∧ (W10 m ρ c (Proc.devRef .tc main_v93) : S50000x64.Idx → EReal) = H3 m c) :
    (W13 m ρ c (Proc.devRef .tc main_v113) : S64x1.Idx → EReal)
      = Glue.net (a0 m c) (a1 m c) (a2 m c) (a3 m c) (a4 m c) (a5 m c) (a6 m c) (a7 m c) (a8 m c) (a9 m c) (a10 m c) := by
  obtain ⟨hL, hH⟩ := h
  -- the host stretch: the membership matrix and the counts
  have eoh : (W11 m ρ c (Proc.devRef .tc main_v100) : S50000x64.Idx → EReal)
      = Glue.onehotOf (F := Ideal) (W10 m ρ c (Proc.devRef .tc main_arg2)) := by
    dsimp only [W11, hostOps6]; after_results_simp <;> rfl
  have ecnt : (W11 m ρ c (Proc.devRef .tc main_v104) : S64x1.Idx → EReal)
      = Glue.cntOf (F := Ideal) (W10 m ρ c (Proc.devRef .tc main_arg2)) := by
    dsimp only [W11, hostOps6]; after_results_simp <;> rfl
  have eh : W11 m ρ c (Proc.devRef .tc main_v93) = W10 m ρ c (Proc.devRef .tc main_v93) := Keep.keep6 _ main_v93 (by decide)
  have e9 : W11 m ρ c (Proc.devRef .tc main_arg9) = W10 m ρ c (Proc.devRef .tc main_arg9) := Keep.keep6 _ main_arg9 (by decide)
  have e10 : W11 m ρ c (Proc.devRef .tc main_arg10) = W10 m ρ c (Proc.devRef .tc main_arg10) := Keep.keep6 _ main_arg10 (by decide)
  -- the pooling region
  have epool : (W12 m ρ c (Proc.devRef .tc main_v105) : S64x64.Idx → EReal)
      = Cert.Spec.pool (V11 m ρ c main_v100 : S50000x64.Idx → EReal) (V11 m ρ c main_v93 : S50000x64.Idx → EReal) :=
    (W12_arr m ρ c 2).trans (RegVal.pool6 (V11 m ρ) c)
  have f104 : W12 m ρ c (Proc.devRef .tc main_v104) = W11 m ρ c (Proc.devRef .tc main_v104) := W12_of_ne m ρ c main_v104 (by decide)
  have f9 : W12 m ρ c (Proc.devRef .tc main_arg9) = W11 m ρ c (Proc.devRef .tc main_arg9) := W12_of_ne m ρ c main_arg9 (by decide)
  have f10 : W12 m ρ c (Proc.devRef .tc main_arg10) = W11 m ρ c (Proc.devRef .tc main_arg10) := W12_of_ne m ρ c main_arg10 (by decide)
  -- the last host stretch
  have etail : (W13 m ρ c (Proc.devRef .tc main_v113) : S64x1.Idx → EReal)
      = Glue.tailOf (F := Ideal) (W12 m ρ c (Proc.devRef .tc main_v105)) (W12 m ρ c (Proc.devRef .tc main_v104))
          (W12 m ρ c (Proc.devRef .tc main_arg9)) (W12 m ρ c (Proc.devRef .tc main_arg10)) := by
    dsimp only [W13, hostOps7]; after_results_simp <;> rfl
  refine etail.trans ?_
  have z1 : (V11 m ρ c main_v100 : S50000x64.Idx → EReal) = Glue.onehotOf (F := Ideal) (a2 m c) := by
    refine eoh.trans ?_; rw [hL.g2]
  have z2 : (V11 m ρ c main_v93 : S50000x64.Idx → EReal) = H3 m c := eh.trans hH
  have z3 : (W12 m ρ c (Proc.devRef .tc main_v104) : S64x1.Idx → EReal) = Glue.cntOf (F := Ideal) (a2 m c) := by
    refine f104.trans (ecnt.trans ?_); rw [hL.g2]
  have z4 : (W12 m ρ c (Proc.devRef .tc main_arg9) : S64x1.Idx → EReal) = a9 m c := f9.trans (e9.trans hL.g9)
  have z5 : (W12 m ρ c (Proc.devRef .tc main_arg10) : S1.Idx → EReal) = a10 m c := f10.trans (e10.trans hL.g10)
  rw [epool, z1, z2, z3, z4, z5]; rfl

end Cert.KernelIdeal.Chain

end
-- ==== Proof.ScatterSum.lean ====
/-
  A scatter-add of rows, read as a sum.

  The scatter whose dimension numbers say "the updates' axis 1 is the window, the operand's axis 0 is the one the
  index names, the index vector is the (length-one) axis 1 of the indices" sends update (r, c) to operand element
  (idx(r, 0), c), the index read as a signed number; an index outside the operand's rows drops its update. So the
  accumulating scatter adds to operand element (p, q) the sum over r of [idx(r, 0) = p] · upd(r, q).
-/
import Idealize.ShloMosaic.PureOps.Ideal
import Idealize.ShloMosaic.Lib.ValueIdx
import proofs.«411616_j90108413870647_1_alg».proof.Proof.Spec

noncomputable section

namespace Cert.ScatterSum

open Idealize.ShloMosaic Idealize.ShloMosaic.ValueIdx Cert.Spec
open scoped BigOperators

/-- The dimension numbers of a row scatter into a g × d operand from n × d updates at n × 1 indices. -/
abbrev rowDims (g n d : Nat) (wf : ScatterDims.WF (M g d) (M n 1) (M n d) [1] [0] [0] 1) :
    ScatterDims (M g d) (M n 1) (M n d) where
  updateWindowDims := [1]
  insertedWindowDims := [0]
  scatterDimsToOperandDims := [0]
  indexVectorDim := 1
  wf := wf

variable {g n d w : Nat} (wf : ScatterDims.WF (M g d) (M n 1) (M n d) [1] [0] [0] 1)

/-- On the operand's row axis the window starts at the index of the update's row. -/
theorem start_zero (r : Fin n) (c : Fin d) (idx : IVec (M n 1) w) :
    (rowDims g n d wf).start (ix2 r c) idx (0 : Fin 2) = (idx (ix2 r (0 : Fin 1))).toInt := by
  unfold ScatterDims.start
  rw [dif_pos (show (0 : Fin 2) ∈ (rowDims g n d wf).scatterDimsToOperandDims from List.mem_singleton.mpr rfl)]
  have hsi : (rowDims g n d wf).siIdx (ix2 r c) ⟨List.idxOf (0 : Fin 2) (rowDims g n d wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- On the operand's column axis the window starts at 0. -/
theorem start_one (r : Fin n) (c : Fin d) (idx : IVec (M n 1) w) :
    (rowDims g n d wf).start (ix2 r c) idx (1 : Fin 2) = 0 := by
  unfold ScatterDims.start
  have h : ¬ (1 : Fin 2) ∈ (rowDims g n d wf).scatterDimsToOperandDims := by
    show ¬ (1 : Fin 2) ∈ ([0] : List (Fin 2)); decide
  rw [dif_neg h]

/-- The row axis is inserted: no window coordinate. -/
theorem window_zero (r : Fin n) (c : Fin d) :
    (rowDims g n d wf).window (ix2 r c) (0 : Fin 2) = 0 := by
  unfold ScatterDims.window
  have h : ¬ (0 : Fin 2) ∈ (rowDims g n d wf).sKept := by
    show ¬ (0 : Fin 2) ∈ (List.finRange 2).filter (fun a => a ∉ ([0] : List (Fin 2))); decide
  rw [dif_neg h]

/-- The column axis carries the update's column. -/
theorem window_one (r : Fin n) (c : Fin d) :
    (rowDims g n d wf).window (ix2 r c) (1 : Fin 2) = c.val := by
  unfold ScatterDims.window
  have h : (1 : Fin 2) ∈ (rowDims g n d wf).sKept := by
    show (1 : Fin 2) ∈ (List.finRange 2).filter (fun a => a ∉ ([0] : List (Fin 2))); decide
  rw [dif_pos h]
  rfl

/-- Update (r, c) lands on operand element (p, q) exactly when its row's index, read signed, is p and c = q. -/
theorem resultIdx?_eq_some_iff (r : Fin n) (c : Fin d) (idx : IVec (M n 1) w) (p : Fin g) (q : Fin d) :
    (rowDims g n d wf).resultIdx? (ix2 r c) idx = some (ix2 p q) ↔
      (idx (ix2 r (0 : Fin 1))).toInt = (p.val : Int) ∧ c = q := by
  unfold ScatterDims.resultIdx?
  have hp : p.val < g := p.isLt
  have hq : q.val < d := q.isLt
  have hc : c.val < d := c.isLt
  have hs0 : (M g d).size (0 : Fin 2) = g := rfl
  have hs1 : (M g d).size (1 : Fin 2) = d := rfl
  split
  · rename_i h
    rw [Option.some.injEq]
    constructor
    · intro he
      have h0 := congrArg (fun f => (f (0 : Fin 2)).val) he
      have h1 := congrArg (fun f => (f (1 : Fin 2)).val) he
      have hb := (h 0).1
      simp only [start_zero, start_one, window_zero, window_one] at h0 h1 hb
      refine ⟨?_, Fin.ext ?_⟩
      · change ((idx (ix2 r (0 : Fin 1))).toInt + ((0 : Nat) : Int)).toNat = p.val at h0
        omega
      · change (0 + (c.val : Int)).toNat = q.val at h1
        omega
    · rintro ⟨he, rfl⟩
      funext a
      refine Fin.ext ?_
      match a with
      | ⟨0, _⟩ =>
        change ((rowDims g n d wf).start (ix2 r c) idx (0 : Fin 2) + ((rowDims g n d wf).window (ix2 r c) (0 : Fin 2) : Int)).toNat = p.val
        rw [start_zero, window_zero]; omega
      | ⟨1, _⟩ =>
        change ((rowDims g n d wf).start (ix2 r c) idx (1 : Fin 2) + ((rowDims g n d wf).window (ix2 r c) (1 : Fin 2) : Int)).toNat = c.val
        rw [start_one, window_one]; omega
  · rename_i h
    constructor
    · intro he; exact absurd he (by simp)
    · rintro ⟨he, rfl⟩
      exfalso; apply h
      intro a
      match a with
      | ⟨0, _⟩ =>
        change 0 ≤ (rowDims g n d wf).start (ix2 r c) idx (0 : Fin 2) + ((rowDims g n d wf).window (ix2 r c) (0 : Fin 2) : Int) ∧
          (rowDims g n d wf).start (ix2 r c) idx (0 : Fin 2) + ((rowDims g n d wf).window (ix2 r c) (0 : Fin 2) : Int) < ((M g d).size (0 : Fin 2) : Int)
        rw [start_zero, window_zero, hs0]; omega
      | ⟨1, _⟩ =>
        change 0 ≤ (rowDims g n d wf).start (ix2 r c) idx (1 : Fin 2) + ((rowDims g n d wf).window (ix2 r c) (1 : Fin 2) : Int) ∧
          (rowDims g n d wf).start (ix2 r c) idx (1 : Fin 2) + ((rowDims g n d wf).window (ix2 r c) (1 : Fin 2) : Int) < ((M g d).size (1 : Fin 2) : Int)
        rw [start_one, window_one, hs1]; omega

/-- The accumulating row scatter at element i: the operand's element plus, over the update rows r, the update's
    element in i's column where row r's index (read signed) is i's row. -/
theorem hostScatterAdd_rowDims (x : (M g d).Idx → EReal) (idx : IVec (M n 1) w) (upd : (M n d).Idx → EReal)
    (i : (M g d).Idx) :
    Ideal.hostScatterAdd (rowDims g n d wf) x idx upd i
      = x i + ∑ r : Fin n, (if (idx (ix2 r (0 : Fin 1))).toInt = ((i 0).val : Int) then (1 : EReal) else 0)
          * upd (ix2 (n1 := d) r (i 1)) := by
  obtain ⟨p, q, rfl⟩ : ∃ (p : Fin g) (q : Fin d), i = ix2 p q := ⟨i 0, i 1, eq_ix2 i⟩
  unfold Ideal.hostScatterAdd
  congr 1
  rw [Finset.sum_filter, sum_idx2]
  refine Finset.sum_congr rfl fun r _ => ?_
  simp only [resultIdx?_eq_some_iff]
  change _ = (if (idx (ix2 r (0 : Fin 1))).toInt = (p.val : Int) then (1 : EReal) else 0) * upd (ix2 r q)
  by_cases hA : (idx (ix2 r (0 : Fin 1))).toInt = (p.val : Int)
  · simp only [hA, true_and, if_true, one_mul]
    rw [Finset.sum_ite_eq' Finset.univ q (fun c => upd (ix2 r c))]
    simp
  · simp only [hA, false_and, if_false, zero_mul, Finset.sum_const_zero]

end Cert.ScatterSum

end
-- ==== Proof.ScatterPool.lean ====
import proofs.«411616_j90108413870647_1_alg».proof.ReferenceIdeal
import proofs.«411616_j90108413870647_1_alg».proof.Proof.Gen.ReferenceIdeal
import proofs.«411616_j90108413870647_1_alg».proof.Proof.Glue
import Idealize.ShloMosaic.Lib.ValueIdx
import Idealize.ShloMosaic.Lib.Pipeline.Value
import Idealize.ShloMosaic.Lib.StableHlo.Predicate
import Idealize.ShloMosaic.PureOps.Ideal.Laws
import proofs.«411616_j90108413870647_1_alg».proof.Proof.ScatterSum

noncomputable section

namespace Cert.ReferenceIdeal.RefVal

open Cert.ReferenceIdeal Cert.ReferenceIdeal.Gen
open Idealize.ShloMosaic Idealize.ShloMosaic.TcCoe Idealize.ShloMosaic.ValueIdx Idealize.SL.Sem

/-- A word equals the word of a small number exactly when its signed value is that number. -/
theorem eq_ofNat_iff_toInt (x : BitVec 32) (c : Nat) (hc : c < 2 ^ 31) :
    x = BitVec.ofNat 32 c ↔ x.toInt = (c : Int) := by
  have hn : (BitVec.ofNat 32 c).toNat = c := by
    rw [BitVec.toNat_ofNat]; exact Nat.mod_eq_of_lt (by omega)
  have hi : (BitVec.ofNat 32 c).toInt = (c : Int) := by
    rw [StableHlo.Predicate.toInt_eq_toNat_of_lt (by rw [hn]; exact hc), hn]
  constructor
  · rintro rfl; exact hi
  · intro h; exact BitVec.eq_of_toInt_eq (h.trans hi.symm)

/-- The membership matrix as the host computes it is the specification's: 1 where the id, read signed, is the column. -/
theorem onehotOf_eq (bt : IVec S50000 32) :
    (Cert.KernelIdeal.Glue.onehotOf (F := Ideal) bt : S50000x64.Idx → EReal) = Cert.Spec.onehot bt := by
  funext j
  obtain ⟨r, c, rfl⟩ : ∃ (r : Fin 50000) (c : Fin 64), j = ix2 r c := ⟨j 0, j 1, eq_ix2 j⟩
  -- the two compared words at (r, c): row r's id, and the number c
  have hA : broadcastInDim Cert.KernelIdeal.S50000x64 ![0, 1] Cert.KernelIdeal.Facts₀.bcast_S50000x1_S50000x64_0_1
      (broadcastInDim Cert.KernelIdeal.S50000x1 ![0] Cert.KernelIdeal.Facts₀.bcast_S50000_S50000x1_0 bt) (ix2 r c)
        = bt (ix1 r) := by
    rw [broadcastInDim_apply _ _ _ (ix2 r c) (ix2 r (0 : Fin 1))
      (fun a => match a with | ⟨0, _⟩ => rfl | ⟨1, _⟩ => rfl)]
    exact broadcastInDim_apply _ _ bt (ix2 r (0 : Fin 1)) (ix1 r) (fun a => match a with | ⟨0, _⟩ => rfl)
  have hB : broadcastInDim Cert.KernelIdeal.S50000x64 ![0, 1] Cert.KernelIdeal.Facts₀.bcast_S1x64_S50000x64_0_1
      (broadcastInDim Cert.KernelIdeal.S1x64 ![1] Cert.KernelIdeal.Facts₀.bcast_S64_S1x64_1
        (iotaInDim Cert.KernelIdeal.S64 32 0)) (ix2 r c) = BitVec.ofNat 32 c.val := by
    rw [broadcastInDim_apply _ _ _ (ix2 r c) (ix2 (0 : Fin 1) c)
      (fun a => match a with | ⟨0, _⟩ => rfl | ⟨1, _⟩ => rfl)]
    exact broadcastInDim_apply _ _ (iotaInDim Cert.KernelIdeal.S64 32 0) (ix2 (0 : Fin 1) c) (ix1 c)
      (fun a => match a with | ⟨0, _⟩ => rfl)
  have hc : c.val < 2 ^ 31 := by have := c.isLt; omega
  show ((((IntOp.cmpi .eq _ _ : BitVec 1).toNat : ℝ) : EReal)) = if (bt (ix1 r)).toInt = (c.val : Int) then 1 else 0
  rw [hA, hB]
  by_cases he : bt (ix1 r) = BitVec.ofNat 32 c.val
  · rw [if_pos ((eq_ofNat_iff_toInt _ _ hc).mp he), StableHlo.Predicate.cmpi_eq_iff.mpr he]
    norm_num
  · rw [if_neg (fun h => he ((eq_ofNat_iff_toInt _ _ hc).mpr h)),
      eq_zero_of_ne_one (fun h => he (StableHlo.Predicate.cmpi_eq_iff.mp h))]
    norm_num

/-- A scatter-add of the rows of `h` into 64 zero rows at the rows the segment ids name (an id outside 0 … 63, read
    signed, drops its row) is the product of the membership matrix's transpose with `h`. -/
theorem scatter_pool (bt : IVec S50000 32) (h : FVec Ideal S50000x64 .f32) :
    Host.scatterAdd (F := Ideal) scatter_S64x64_S50000x1_S50000x64_1_0_0_1
        (broadcastInDim S64x64 ![] bcast_S_S64x64 (constant S_ .f32 0x00000000#32))
        (broadcastInDim S50000x1 ![0] bcast_S50000_S50000x1_0 bt) h
      = Cert.Spec.pool (Cert.KernelIdeal.Glue.onehotOf (F := Ideal) bt : S50000x64.Idx → EReal) h := by
  rw [onehotOf_eq]
  funext i
  -- the reference's dimension numbers are a row scatter's
  have hrec : scatter_S64x64_S50000x1_S50000x64_1_0_0_1
      = Cert.ScatterSum.rowDims 64 50000 64 scatter_S64x64_S50000x1_S50000x64_1_0_0_1_wf := rfl
  show Ideal.hostScatterAdd scatter_S64x64_S50000x1_S50000x64_1_0_0_1 _ _ h i = _
  rw [hrec, Cert.ScatterSum.hostScatterAdd_rowDims]
  -- the operand is zero everywhere
  have hx : broadcastInDim S64x64 ![] bcast_S_S64x64 (constant (F := Ideal) S_ .f32 0x00000000#32) i = 0 := by
    rw [broadcastInDim_apply _ _ _ i ix0 (fun a => a.elim0)]
    exact Ideal.ofBits_zero_f32
  rw [hx, zero_add]
  -- the index column's entry (r, 0) is row r's id
  refine Finset.sum_congr rfl fun r _ => ?_
  rw [broadcastInDim_apply _ _ bt (ix2 r (0 : Fin 1)) (ix1 r) (fun a => match a with | ⟨0, _⟩ => rfl)]
  rfl

end Cert.ReferenceIdeal.RefVal

end
-- ==== Proof.RefLayer.lean ====
import proofs.«411616_j90108413870647_1_alg».proof.Proof.Gen.ReferenceIdeal.Run
import proofs.«411616_j90108413870647_1_alg».proof.Proof.Gen.ReferenceIdeal.Read
import proofs.«411616_j90108413870647_1_alg».proof.Proof.Glue
import Idealize.ShloMosaic.Lib.ValueIdx

noncomputable section

namespace Cert.ReferenceIdeal.RefVal

open Cert.ReferenceIdeal Cert.ReferenceIdeal.Gen
open Idealize.ShloMosaic Idealize.ShloMosaic.TcCoe Idealize.ShloMosaic.ValueIdx Idealize.SL.Sem
open Cert.ReferenceIdeal.Read

/-- The host's dot product of the node features with the first weight is the matrix product. -/
theorem dot128 (x : FVec Ideal S50000x128 .f32) (w : FVec Ideal S128x64 .f32) :
    Host.dotGeneral (F := Ideal) dot_S50000x128_S128x64_S50000x64_1_0_0_1_n_n none x w = Cert.Spec.proj x w := by
  funext i
  refine (val_main_v4_apply x w i).trans ?_
  unfold Cert.Spec.proj
  refine Finset.sum_congr rfl fun k _ => ?_
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  rw [el, er]
  rfl

/-- The host's dot product of a layer's output with the next weight is the matrix product. -/
theorem dot64 (x : FVec Ideal S50000x64 .f32) (w : FVec Ideal S64x64 .f32) :
    Host.dotGeneral (F := Ideal) dot_S50000x64_S64x64_S50000x64_1_0_0_1_n_n none x w = Cert.Spec.proj x w := by
  funext i
  simp only [Host.dotGeneral]
  rw [Ideal.dotGeneral_apply, ← Equiv.sum_comp (ValueIdx.contrEquiv1 dot_S50000x64_S64x64_S50000x64_1_0_0_1_n_n 64 rfl rfl).symm]
  unfold Cert.Spec.proj
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = ix2 (i 0) k := funext fun a => Fin.ext (by
    match a with
    | ⟨0, _⟩ => exact lhs_main_v57_0 _ _
    | ⟨1, _⟩ => exact (lhs_main_v57_1 _ _).trans hk)
  have er : dot_S50000x64_S64x64_S50000x64_1_0_0_1_n_n.rhsIdx i ((ValueIdx.contrEquiv1 dot_S50000x64_S64x64_S50000x64_1_0_0_1_n_n 64 rfl rfl).symm k) = ix2 k (i 1) := funext fun a => Fin.ext (by
    match a with
    | ⟨0, _⟩ => exact (rhs_main_v57_0 _ _).trans hk
    | ⟨1, _⟩ => exact rhs_main_v57_1 _ _)
  rw [el, er]
  rfl

open Cert.KernelIdeal.Glue in
/-- One layer of the reference as a single term in its projected features `hp`, the edge list and the bias: the
    aggregate over incoming edges, plus `hp` scaled row by row by the squared inverse square root degrees, plus the
    bias on every row, clipped below at zero. -/
def refLayer (hp : FVec Ideal S50000x64 .f32) (e : IVec S2x800000 32) (b : FVec Ideal S64 .f32) :
    FVec Ideal S50000x64 .f32 :=
  maximumf
    (addf
      (addf (aggOf hp (srcOf e) (dstOf e) (normOf (dinvOf (dstOf e)) (srcOf e) (dstOf e)))
        (mulf hp (broadcastInDim S50000x64 ![0, 1] bcast_S50000x1_S50000x64_0_1
          (broadcastInDim S50000x1 ![0] bcast_S50000_S50000x1_0
            (mulf (dinvOf (F := Ideal) (dstOf e)) (dinvOf (F := Ideal) (dstOf e)))))))
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- Stage 56 is that term at the first dot product. -/
theorem stage56 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) :
    val_main_v56 (F := Ideal) x0 x1 x3 x4 = refLayer (val_main_v4 (F := Ideal) x0 x3) x1 x4 := rfl

/-- Stage 109 is that term at the second dot product. -/
theorem stage109 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v109 (F := Ideal) x0 x1 x3 x4 x5 x6 = refLayer (val_main_v57 (F := Ideal) x0 x1 x3 x4 x5) x1 x6 := rfl

/-- Stage 162 is that term at the third dot product. -/
theorem stage162 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v162 (F := Ideal) x0 x1 x3 x4 x5 x6 x7 x8 = refLayer (val_main_v110 (F := Ideal) x0 x1 x3 x4 x5 x6 x7) x1 x8 := rfl

/-- A vector broadcast to a column and then along the rows reads, at (p, q), the vector at p. -/
theorem col_apply (v : FVec Ideal S50000 .f32) (p : Fin 50000) (q : Fin 64) :
    broadcastInDim S50000x64 ![0, 1] bcast_S50000x1_S50000x64_0_1
        (broadcastInDim S50000x1 ![0] bcast_S50000_S50000x1_0 v) (ix2 p q) = v (ix1 p) := by
  refine (broadcastInDim_apply _ bcast_S50000x1_S50000x64_0_1 _ (ix2 p q) (ix2 p (0 : Fin 1)) (fun a => ?_)).trans
    (broadcastInDim_apply _ bcast_S50000_S50000x1_0 v (ix2 p (0 : Fin 1)) (ix1 p) (fun a => ?_))
  · match a with
    | ⟨0, _⟩ => show p.val = if (50000 : Nat) = 1 then 0 else p.val; rw [if_neg (by decide)]
    | ⟨1, _⟩ => show 0 = if (1 : Nat) = 1 then 0 else q.val; rw [if_pos rfl]
  · match a with
    | ⟨0, _⟩ => show p.val = if (50000 : Nat) = 1 then 0 else p.val; rw [if_neg (by decide)]

/-- A vector broadcast to a row and then along the columns reads, at (p, q), the vector at q. -/
theorem row_apply (b : FVec Ideal S64 .f32) (p : Fin 50000) (q : Fin 64) :
    broadcastInDim S50000x64 ![0, 1] bcast_S1x64_S50000x64_0_1
        (broadcastInDim S1x64 ![1] bcast_S64_S1x64_1 b) (ix2 p q) = b (ix1 q) := by
  refine (broadcastInDim_apply _ bcast_S1x64_S50000x64_0_1 _ (ix2 p q) (ix2 (0 : Fin 1) q) (fun a => ?_)).trans
    (broadcastInDim_apply _ bcast_S64_S1x64_1 b (ix2 (0 : Fin 1) q) (ix1 q) (fun a => ?_))
  · match a with
    | ⟨0, _⟩ => show 0 = if (1 : Nat) = 1 then 0 else p.val; rw [if_pos rfl]
    | ⟨1, _⟩ => show q.val = if (64 : Nat) = 1 then 0 else q.val; rw [if_neg (by decide)]
  · match a with
    | ⟨0, _⟩ => show q.val = if (64 : Nat) = 1 then 0 else q.val; rw [if_neg (by decide)]

/-- The squared inverse square root degrees, as a column, read at (p, 0): the square at p. -/
theorem d2Of_apply (dinv : FVec Ideal S50000 .f32) (p : Fin 50000) :
    Cert.KernelIdeal.Glue.d2Of (F := Ideal) dinv (ix2 p (0 : Fin 1)) = mulf dinv dinv (ix1 p) := by
  unfold Cert.KernelIdeal.Glue.d2Of
  exact shapeCast_apply _ _ (ix2 p (0 : Fin 1)) (ix1 p) (by
    rw [Shape.rowMajor_val_two, Shape.rowMajor_val_one]; show p.val = p.val * 1 + 0; omega)

/-- The bias as a row, read at (0, q): the bias at q. -/
theorem rowOf_apply (b : FVec Ideal S64 .f32) (q : Fin 64) :
    Cert.KernelIdeal.Glue.rowOf (F := Ideal) b (ix2 (0 : Fin 1) q) = b (ix1 q) := by
  unfold Cert.KernelIdeal.Glue.rowOf
  exact shapeCast_apply _ _ (ix2 (0 : Fin 1) q) (ix1 q) (by
    rw [Shape.rowMajor_val_two, Shape.rowMajor_val_one]; show q.val = 0 * 64 + q.val; omega)

/-- The reference's layer term is the specification's layer. -/
theorem refLayer_eq (hp : FVec Ideal S50000x64 .f32) (e : IVec S2x800000 32) (b : FVec Ideal S64 .f32) :
    refLayer hp e b = Cert.KernelIdeal.Glue.layerOf hp e b := by
  funext i
  obtain ⟨p, q, rfl⟩ : ∃ (p : Fin 50000) (q : Fin 64), i = ix2 p q := ⟨i 0, i 1, eq_ix2 i⟩
  have e1 := col_apply (mulf (Cert.KernelIdeal.Glue.dinvOf (F := Ideal) (Cert.KernelIdeal.Glue.dstOf e))
    (Cert.KernelIdeal.Glue.dinvOf (F := Ideal) (Cert.KernelIdeal.Glue.dstOf e))) p q
  have e2 := d2Of_apply (Cert.KernelIdeal.Glue.dinvOf (F := Ideal) (Cert.KernelIdeal.Glue.dstOf e)) p
  have e3 := row_apply b p q
  have e4 := rowOf_apply b q
  unfold refLayer Cert.KernelIdeal.Glue.layerOf Cert.Spec.comb
  rw [maximumf_apply, addf_apply, addf_apply, mulf_apply, e1, e3]
  show _ = max (_ + hp (ix2 p q) * Cert.KernelIdeal.Glue.d2Of (F := Ideal) _ (ix2 p (0 : Fin 1))
    + Cert.KernelIdeal.Glue.rowOf (F := Ideal) b (ix2 (0 : Fin 1) q)) _
  rw [e2, e4]
  rfl

/-- The reference's first layer is the specification's layer of the projected node features. -/
theorem h1 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) :
    val_main_v56 (F := Ideal) x0 x1 x3 x4 = Cert.KernelIdeal.Glue.layerOf (Cert.Spec.proj x0 x3) x1 x4 :=
  (stage56 x0 x1 x3 x4).trans
    ((congrArg (fun hp => refLayer hp x1 x4) (dot128 x0 x3)).trans (refLayer_eq _ x1 x4))

/-- The reference's second layer is the specification's layer of the projected first layer. -/
theorem h2 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v109 (F := Ideal) x0 x1 x3 x4 x5 x6
      = Cert.KernelIdeal.Glue.layerOf (Cert.Spec.proj (val_main_v56 (F := Ideal) x0 x1 x3 x4) x5) x1 x6 :=
  (stage109 x0 x1 x3 x4 x5 x6).trans
    ((congrArg (fun hp => refLayer hp x1 x6) (dot64 (val_main_v56 (F := Ideal) x0 x1 x3 x4) x5)).trans
      (refLayer_eq _ x1 x6))

/-- The reference's third layer is the specification's layer of the projected second layer. -/
theorem h3 (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v162 (F := Ideal) x0 x1 x3 x4 x5 x6 x7 x8
      = Cert.KernelIdeal.Glue.layerOf (Cert.Spec.proj (val_main_v109 (F := Ideal) x0 x1 x3 x4 x5 x6) x7) x1 x8 :=
  (stage162 x0 x1 x3 x4 x5 x6 x7 x8).trans
    ((congrArg (fun hp => refLayer hp x1 x8) (dot64 (val_main_v109 (F := Ideal) x0 x1 x3 x4 x5 x6) x7)).trans
      (refLayer_eq _ x1 x8))

end Cert.ReferenceIdeal.RefVal

end
-- ==== Proof.RefVal.lean ====
import proofs.«411616_j90108413870647_1_alg».proof.Proof.Gen.ReferenceIdeal.Run
import proofs.«411616_j90108413870647_1_alg».proof.Proof.Gen.ReferenceIdeal.Read
import proofs.«411616_j90108413870647_1_alg».proof.Proof.Glue
import proofs.«411616_j90108413870647_1_alg».proof.Proof.ScatterPool
import proofs.«411616_j90108413870647_1_alg».proof.Proof.RefLayer
import Idealize.ShloMosaic.Lib.ValueIdx

noncomputable section

namespace Cert.ReferenceIdeal.RefVal

open Cert.ReferenceIdeal Cert.ReferenceIdeal.Gen
open Idealize.ShloMosaic Idealize.ShloMosaic.TcCoe Idealize.ShloMosaic.ValueIdx Idealize.SL.Sem
open Cert.ReferenceIdeal.Read

/-- The reference's head over its third layer: the segment sum is the product with the membership matrix, the rest the
    specification's tail. -/
theorem tail (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal)) :
    val_main_v177 (F := Ideal) x0 x1 x2 x3 x4 x5 x6 x7 x8 x9 x10
      = Cert.KernelIdeal.Glue.tailOf (F := Ideal)
          (Cert.Spec.pool (Cert.KernelIdeal.Glue.onehotOf (F := Ideal) x2) (val_main_v162 (F := Ideal) x0 x1 x3 x4 x5 x6 x7 x8))
          (Cert.KernelIdeal.Glue.cntOf (F := Ideal) x2) x9 x10 := by
  -- Spell the head out as operations on the third layer and the arguments.
  unfold val_main_v177 val_main_v176 val_main_v175 val_main_v174 val_main_v173 val_main_v172 val_main_v171
    val_main_v170 val_main_v169 val_main_v168 val_main_v167 val_main_v166 val_main_v165 val_main_v164 val_main_v163
    val_main_cst_37 val_main_cst_38 val_main_cst_39 val_main_cst_40
  -- The segment sum is the product with the membership matrix.
  rw [scatter_pool]
  -- What remains is the same chain of operations on both sides: divide by the counts (at least one), contract
  -- with the last weight, add the bias.
  unfold Cert.KernelIdeal.Glue.tailOf Cert.KernelIdeal.Glue.cntOf
  rfl

/-- The reference's result, as its run states it, is the network of the specification applied to the argument arrays. -/
theorem result (m : (ℓ : Loc nD τ sig) → Buf (Elt Ideal) ℓ) (c : Dev nD) :
    (Cert.ReferenceIdeal.Value.res_main_v177 (F := Ideal) m c : S64x1.Idx → EReal)
      = Cert.KernelIdeal.Glue.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [Cert.ReferenceIdeal.Read.val_main_v177_eq, tail, h3, h2, h1]
  rfl

end Cert.ReferenceIdeal.RefVal

end
-- ==== Proof.lean ====
/-
  The certificate of a three-layer graph-convolution network with a segment-mean head, computed by seven kernel
  regions among host operations, against its plain reference.

  Frames: the two kernel programs' are the generated frame certificates; the reference's is its generated run with the
  result dropped. The idealization rewrote nothing, so the kernel is its own idealization.

  Values, at the exact instance: the kernel program's result buffer holds what the fold of its boundaries' contents gives
  it; read layer by layer that is the network `net` of the argument arrays — each projection region a matrix product,
  each combine region max(aggregate + product · self-loop weight + bias, 0), the pooling region the product of the
  membership matrix's transpose with the third layer's output. The reference's result term is the same `net`: its
  dot products are those matrix products, its pointwise stretches that combine step, and its segment sum (a scatter-add
  that drops ids outside the segments) the product with the membership matrix. Only commutativity and associativity of
  addition, 0 · x = 0 and 1 · x = x on the extended reals are used, so the precondition is never opened.
-/
import proofs.«411616_j90108413870647_1_alg».proof.Defs
import proofs.«411616_j90108413870647_1_alg».proof.Proof.Gen.Kernel
import proofs.«411616_j90108413870647_1_alg».proof.Proof.Gen.Kernel.Frame
import proofs.«411616_j90108413870647_1_alg».proof.Proof.Gen.KernelIdeal
import proofs.«411616_j90108413870647_1_alg».proof.Proof.Gen.KernelIdeal.Frame
import proofs.«411616_j90108413870647_1_alg».proof.Proof.Gen.ReferenceIdeal
import proofs.«411616_j90108413870647_1_alg».proof.Proof.Gen.ReferenceIdeal.Run
import proofs.«411616_j90108413870647_1_alg».proof.Proof.Gen.Pre_finite_inputs
import proofs.«411616_j90108413870647_1_alg».proof.Proof.KRun
import proofs.«411616_j90108413870647_1_alg».proof.Proof.Chain1
import proofs.«411616_j90108413870647_1_alg».proof.Proof.Chain2
import proofs.«411616_j90108413870647_1_alg».proof.Proof.Chain3
import proofs.«411616_j90108413870647_1_alg».proof.Proof.ChainFin
import proofs.«411616_j90108413870647_1_alg».proof.Proof.RefVal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the network of the argument arrays, on which the two memories agree. -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v113),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefVal.result m' c).trans ?_
  refine Eq.trans ?_ (Cert.KernelIdeal.Chain.fin m ρ c (Cert.KernelIdeal.Chain.st10 m ρ c
    (Cert.KernelIdeal.Chain.st7 m ρ c (Cert.KernelIdeal.Chain.st4 m ρ c)))).symm
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
